-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S400x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2048 : Shape := ⟨2, ![50000, 2048]⟩
abbrev S2048 : Shape := ⟨1, ![2048]⟩
abbrev S512 : Shape := ⟨1, ![512]⟩
abbrev S_ : Shape := ⟨0, ![]⟩

class Facts : Prop where
  bcast_S_S50000x2048 : S_.BroadcastsInDim S50000x2048 (![] : Fin 0 → Fin S50000x2048.rank)
  reducesTo_S50000x2048_S_d0_1 : S50000x2048.ReducesTo [0, 1] S_
  h_S_ : 0 < S_.numel
  bcast_S_S512 : S_.BroadcastsInDim S512 (![] : Fin 0 → Fin S512.rank)
  reducesTo_S512_S_d0 : S512.ReducesTo [0] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S50000x2048 .f32) (main_arg1 : IVec S2048 32) (main_arg2 : FVec F S512 .f32) : IVec S_ 1 :=
  let main_v0 : FVec F S50000x2048 .f32 := Host.absf main_arg0
  let main_cst : FVec F S_ .f32 := constant S_ .f32 0x7F800000#32
  let main_v1 : FVec F S50000x2048 .f32 := broadcastInDim S50000x2048 ![] bcast_S_S50000x2048 main_cst
  let main_v2 : IVec S50000x2048 1 := cmpf .olt main_v0 main_v1
  let main_c : IVec S_ 1 := constantI S_ 1 1#1
  let main_v3 : IVec S_ 1 := (fun x v => Host.reduce IntOp.andi x v reducesTo_S50000x2048_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg1 main_v9
  let main_c_3 : IVec S_ 32 := constantI S_ 32 512#32
  let main_v11 : IVec S2048 32 := broadcastInDim S2048 ![] bcast_S_S2048 main_c_3
  let main_v12 : IVec S2048 1 := cmpi .slt main_arg1 main_v11
  let main_v13 : IVec S2048 1 := andi main_v10 main_v12
  let main_c_4 : IVec S_ 1 := constantI S_ 1 1#1
  let main_v14 : IVec S_ 1 := (fun x v => Host.reduce IntOp.andi x v reducesTo_S2048_S_d0 h_S_) main_v13 main_c_4
  let main_v15 : IVec S_ 1 := andi main_v8 main_v14
  main_v15
-- ==== Kernel.lean ====
abbrev S50000x2048 : Shape := ⟨2, ![50000, 2048]⟩
abbrev S2048 : Shape := ⟨1, ![2048]⟩
abbrev S512 : Shape := ⟨1, ![512]⟩
abbrev S2048x1 : Shape := ⟨2, ![2048, 1]⟩
abbrev S1x512 : Shape := ⟨2, ![1, 512]⟩
abbrev S2048x512 : Shape := ⟨2, ![2048, 512]⟩
abbrev S512x1 : Shape := ⟨2, ![512, 1]⟩
abbrev S1x2048 : Shape := ⟨2, ![1, 2048]⟩
abbrev S512x2048 : Shape := ⟨2, ![512, 2048]⟩
abbrev S50000x512 : Shape := ⟨2, ![50000, 512]⟩
abbrev S125x8x512 : Shape := ⟨3, ![125, 8, 512]⟩
abbrev S400x2048 : Shape := ⟨2, ![400, 2048]⟩
abbrev S400x512 : Shape := ⟨2, ![400, 512]⟩
abbrev S1x8x512 : Shape := ⟨3, ![1, 8, 512]⟩
abbrev S1x1x512 : Shape := ⟨3, ![1, 1, 512]⟩
abbrev S125x1x512 : Shape := ⟨3, ![125, 1, 512]⟩
abbrev S125x512 : Shape := ⟨2, ![125, 512]⟩
abbrev S_ : Shape := ⟨0, ![]⟩
abbrev S1000x512 : Shape := ⟨2, ![1000, 512]⟩

abbrev nBuf : Space → Nat
  | .hbm => 40
  | .vmem => 19
  | .smem => 0
  | _ => 0

abbrev bufTy : (tb : Table) → Fin (tcTables nBuf tb) → BufTy
  | .hbm, ⟨0, _⟩ => ⟨S50000x2048, .f32⟩
  | .hbm, ⟨1, _⟩ => ⟨S2048, .i32⟩
  | .hbm, ⟨2, _⟩ => ⟨S512, .f32⟩
  | .hbm, ⟨3, _⟩ => ⟨S512, .i32⟩
  | .hbm, ⟨4, _⟩ => ⟨S2048x1, .i32⟩
  | .hbm, ⟨5, _⟩ => ⟨S1x512, .i32⟩
  | .hbm, ⟨6, _⟩ => ⟨S2048x512, .i32⟩
  | .hbm, ⟨7, _⟩ => ⟨S2048x512, .i32⟩
  | .hbm, ⟨8, _⟩ => ⟨S2048x512, .i1⟩
  | .hbm, ⟨9, _⟩ => ⟨S2048x512, .bf16⟩
  | .hbm, ⟨10, _⟩ => ⟨S512x1, .i32⟩
  | .hbm, ⟨11, _⟩ => ⟨S1x2048, .i32⟩
  | .hbm, ⟨12, _⟩ => ⟨S512x2048, .i32⟩
  | .hbm, ⟨13, _⟩ => ⟨S512x2048, .i32⟩
  | .hbm, ⟨14, _⟩ => ⟨S512x2048, .i1⟩
  | .hbm, ⟨15, _⟩ => ⟨S512x2048, .bf16⟩
  | .hbm, ⟨16, _⟩ => ⟨S1x512, .f32⟩
  | .hbm, ⟨17, _⟩ => ⟨S50000x2048, .f32⟩
  | .hbm, ⟨18, _⟩ => ⟨S50000x512, .f32⟩
  | .hbm, ⟨19, _⟩ => ⟨S125x8x512, .f32⟩
  | .hbm, ⟨20, _⟩ => ⟨S125x8x512, .f32⟩
  | .hbm, ⟨21, _⟩ => ⟨S125x1x512, .f32⟩
  | .hbm, ⟨22, _⟩ => ⟨S125x512, .f32⟩
  | .hbm, ⟨23, _⟩ => ⟨S_, .f32⟩
  | .hbm, ⟨24, _⟩ => ⟨S512, .f32⟩
  | .hbm, ⟨25, _⟩ => ⟨S125x1x512, .f32⟩
  | .hbm, ⟨26, _⟩ => ⟨S125x512, .f32⟩
  | .hbm, ⟨27, _⟩ => ⟨S_, .f32⟩
  | .hbm, ⟨28, _⟩ => ⟨S512, .f32⟩
  | .hbm, ⟨29, _⟩ => ⟨S_, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S50000x512, .f32⟩
  | .local _ .vmem, ⟨0, _⟩ => ⟨S400x2048, .f32⟩
  | .local _ .vmem, ⟨1, _⟩ => ⟨S400x2048, .f32⟩
  | .local _ .vmem, ⟨2, _⟩ => ⟨S2048x512, .bf16⟩
  | .local _ .vmem, ⟨3, _⟩ => ⟨S512x2048, .bf16⟩
  | .local _ .vmem, ⟨4, _⟩ => ⟨S1x512, .f32⟩
  | .local _ .vmem, ⟨5, _⟩ => ⟨S400x2048, .f32⟩
  | .local _ .vmem, ⟨6, _⟩ => ⟨S400x2048, .f32⟩
  | .local _ .vmem, ⟨7, _⟩ => ⟨S400x512, .f32⟩
  | .local _ .vmem, ⟨8, _⟩ => ⟨S400x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S1x8x512, .f32⟩
  | .local _ .vmem, ⟨13, _⟩ => ⟨S1000x512, .f32⟩
  | .local _ .vmem, ⟨14, _⟩ => ⟨S1000x512, .f32⟩
  | .local _ .vmem, ⟨15, _⟩ => ⟨S1x512, .f32⟩
  | .local _ .vmem, ⟨16, _⟩ => ⟨S1x512, .f32⟩
  | .local _ .vmem, ⟨17, _⟩ => ⟨S1000x512, .f32⟩
  | .local _ .vmem, ⟨18, _⟩ => ⟨S1000x512, .f32⟩
  | _, _ => ⟨S50000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev main_v14_2 : Ref sig .tc := ⟨.hbm, 19, rfl⟩
abbrev main_v14_3 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S2048_S2048x1_0 : S2048.BroadcastsInDim S2048x1 (![0] : Fin 1 → Fin S2048x1.rank)
  bcast_S512_S1x512_1 : S512.BroadcastsInDim S1x512 (![1] : Fin 1 → Fin S1x512.rank)
  bcast_S2048x1_S2048x512_0_1 : S2048x1.BroadcastsInDim S2048x512 (![0, 1] : Fin 2 → Fin S2048x512.rank)
  bcast_S1x512_S2048x512_0_1 : S1x512.BroadcastsInDim S2048x512 (![0, 1] : Fin 2 → Fin S2048x512.rank)
  bcast_S512_S512x1_0 : S512.BroadcastsInDim S512x1 (![0] : Fin 1 → Fin S512x1.rank)
  bcast_S2048_S1x2048_1 : S2048.BroadcastsInDim S1x2048 (![1] : Fin 1 → Fin S1x2048.rank)
  bcast_S512x1_S512x2048_0_1 : S512x1.BroadcastsInDim S512x2048 (![0, 1] : Fin 2 → Fin S512x2048.rank)
  bcast_S1x2048_S512x2048_0_1 : S1x2048.BroadcastsInDim S512x2048 (![0, 1] : Fin 2 → Fin S512x2048.rank)
  shapeCasts_S512_S1x512 : S512.ShapeCasts S1x512
  inb_S400x2048_S400x2048_0_0 : ∀ a, (![0, 0] : Fin 2 → Nat) a + S400x2048.size a ≤ S400x2048.size a
  h_S400x2048 : 0 < S400x2048.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S400x512_S400x512_0_0 : ∀ a, (![0, 0] : Fin 2 → Nat) a + S400x512.size a ≤ S400x512.size a
  h_S400x512 : 0 < S400x512.numel
  reduces_S400x512_S512 : S400x512.Reduces [0] S512
  shapeCasts_S1x512_S1x1x512 : S1x512.ShapeCasts S1x1x512
  shapeCasts_S1x1x512_S1x1x512 : S1x1x512.ShapeCasts S1x1x512
  broadcasts_S1x1x512_S1x8x512 : S1x1x512.Broadcasts S1x8x512
  inb_S1x8x512_S1x8x512_0_0_0 : ∀ a, (![0, 0, 0] : Fin 3 → Nat) a + S1x8x512.size a ≤ S1x8x512.size a
  h_S1x8x512 : 0 < S1x8x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S125x8x512_S125x1x512_0_0_0 : S125x8x512.Slices ![0, 0, 0] S125x1x512
  shapeCasts_S125x1x512_S125x512 : S125x1x512.ShapeCasts S125x512
  reducesTo_S125x512_S512_d0 : S125x512.ReducesTo [0] S512
  h_S_ : 0 < S_.numel
  bcast_S_S512 : S_.BroadcastsInDim S512 (![] : Fin 0 → Fin S512.rank)
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  broadcasts_S1x512_S1000x512 : S1x512.Broadcasts S1000x512
  dot_S400x2048_S2048x512_S400x512_1_0_0_1_n_n_wf : DotDims.WF S400x2048 S2048x512 S400x512 [1] [0] [0] [1] [] []
  dot_S400x512_S512x2048_S400x2048_1_0_0_1_n_n_wf : DotDims.WF S400x512 S512x2048 S400x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2048.size a ≤ S50000x2048.size a
  hwx0_0 : ∀ i : grid0.Coords, EltTy.bits .f32 = 32 ∨ (Rect.block (s := S50000x2048) S400x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x2048.size a ≤ S50000x2048.size a
  hwx0_4 : ∀ i : grid0.Coords, EltTy.bits .f32 = 32 ∨ (Rect.block (s := S50000x2048) S400x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x512.size a ≤ S50000x512.size a
  hwx0_5 : ∀ i : grid0.Coords, EltTy.bits .f32 = 32 ∨ (Rect.block (s := S50000x512) S400x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x512.size a ≤ S125x8x512.size a
  hwx0_6 : ∀ i : grid0.Coords, EltTy.bits .f32 = 32 ∨ (Rect.block (s := S125x8x512) S1x8x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x512.size a ≤ S125x8x512.size a
  hwx0_7 : ∀ i : grid0.Coords, EltTy.bits .f32 = 32 ∨ (Rect.block (s := S125x8x512) S1x8x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S50000x512.size a
  hwx1_3 : ∀ i : grid1.Coords, EltTy.bits .f32 = 32 ∨ (Rect.block (s := S50000x512) S1000x512.size (cc1_transform_3 i) (hinb1_3 i)).WholeWords (EltTy.packing .f32)

variable [Facts₀]

def dot_S400x2048_S2048x512_S400x512_1_0_0_1_n_n : DotDims S400x2048 S2048x512 S400x512 where
  lhsContracting := [1]
  rhsContracting := [0]
  lhsNonContracting := [0]
  rhsNonContracting := [1]
  lhsBatch := []
  rhsBatch := []
  wf := dot_S400x2048_S2048x512_S400x512_1_0_0_1_n_n_wf
def dot_S400x512_S512x2048_S400x2048_1_0_0_1_n_n : DotDims S400x512 S512x2048 S400x2048 where
  lhsContracting := [1]
  rhsContracting := [0]
  lhsNonContracting := [0]
  rhsNonContracting := [1]
  lhsBatch := []
  rhsBatch := []
  wf := dot_S400x512_S512x2048_S400x2048_1_0_0_1_n_n_wf

abbrev win0_0 : Pipeline.Window sig grid0 :=
  Pipeline.Window.ofSpec (Memref.whole main_arg0) S400x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S400x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S400x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_2) S1x8x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_3) S1x8x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14_1) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x2048 : Shape := ⟨2, ![50000, 2048]⟩
abbrev S2048 : Shape := ⟨1, ![2048]⟩
abbrev S512 : Shape := ⟨1, ![512]⟩
abbrev S2048x50000 : Shape := ⟨2, ![2048, 50000]⟩
abbrev S_ : Shape := ⟨0, ![]⟩
abbrev S512x50000 : Shape := ⟨2, ![512, 50000]⟩
abbrev S2048x1 : Shape := ⟨2, ![2048, 1]⟩
abbrev S50000x512 : Shape := ⟨2, ![50000, 512]⟩
abbrev S1x512 : Shape := ⟨2, ![1, 512]⟩

abbrev nBuf : Space → Nat
  | .hbm => 69
  | .vmem => 0
  | .smem => 0
  | _ => 0

abbrev bufTy : (tb : Table) → Fin (tcTables nBuf tb) → BufTy
  | .hbm, ⟨0, _⟩ => ⟨S50000x2048, .f32⟩
  | .hbm, ⟨1, _⟩ => ⟨S2048, .i32⟩
  | .hbm, ⟨2, _⟩ => ⟨S512, .f32⟩
  | .hbm, ⟨3, _⟩ => ⟨S50000x2048, .f32⟩
  | .hbm, ⟨4, _⟩ => ⟨S2048x50000, .f32⟩
  | .hbm, ⟨5, _⟩ => ⟨S_, .f32⟩
  | .hbm, ⟨6, _⟩ => ⟨S512x50000, .f32⟩
  | .hbm, ⟨7, _⟩ => ⟨S2048x1, .i32⟩
  | .hbm, ⟨8, _⟩ => ⟨S512x50000, .f32⟩
  | .hbm, ⟨9, _⟩ => ⟨S50000x512, .f32⟩
  | .hbm, ⟨10, _⟩ => ⟨S50000x512, .f32⟩
  | .hbm, ⟨11, _⟩ => ⟨S_, .f32⟩
  | .hbm, ⟨12, _⟩ => ⟨S50000x512, .f32⟩
  | .hbm, ⟨13, _⟩ => ⟨S50000x512, .f32⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S_, .i32⟩
  | .hbm, ⟨20, _⟩ => ⟨S_, .f32⟩
  | .hbm, ⟨21, _⟩ => ⟨S512, .f32⟩
  | .hbm, ⟨22, _⟩ => ⟨S1x512, .f32⟩
  | .hbm, ⟨23, _⟩ => ⟨S_, .f32⟩
  | .hbm, ⟨24, _⟩ => ⟨S1x512, .f32⟩
  | .hbm, ⟨25, _⟩ => ⟨S1x512, .f32⟩
  | .hbm, ⟨26, _⟩ => ⟨S50000x512, .f32⟩
  | .hbm, ⟨27, _⟩ => ⟨S50000x512, .f32⟩
  | .hbm, ⟨28, _⟩ => ⟨S50000x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S1x512, .f32⟩
  | .hbm, ⟨43, _⟩ => ⟨S50000x512, .f32⟩
  | .hbm, ⟨44, _⟩ => ⟨S50000x512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S512, .f32⟩
  | .hbm, ⟨49, _⟩ => ⟨S1x512, .f32⟩
  | .hbm, ⟨50, _⟩ => ⟨S50000x512, .f32⟩
  | .hbm, ⟨51, _⟩ => ⟨S50000x512, .f32⟩
  | .hbm, ⟨52, _⟩ => ⟨S1x512, .f32⟩
  | .hbm, ⟨53, _⟩ => ⟨S50000x512, .f32⟩
  | .hbm, ⟨54, _⟩ => ⟨S50000x512, .f32⟩
  | .hbm, ⟨55, _⟩ => ⟨S50000x512, .f32⟩
  | .hbm, ⟨56, _⟩ => ⟨S_, .f32⟩
  | .hbm, ⟨57, _⟩ => ⟨S50000x512, .f32⟩
  | .hbm, ⟨58, _⟩ => ⟨S50000x512, .f32⟩
  | .hbm, ⟨59, _⟩ => ⟨S_, .i32⟩
  | .hbm, ⟨60, _⟩ => ⟨S2048, .i32⟩
  | .hbm, ⟨61, _⟩ => ⟨S2048, .i1⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048, .i32⟩
  | .hbm, ⟨66, _⟩ => ⟨S2048x1, .i32⟩
  | .hbm, ⟨67, _⟩ => ⟨S50000x2048, .f32⟩
  | .hbm, ⟨68, _⟩ => ⟨S50000x2048, .f32⟩
  | _, _ => ⟨S50000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_cst_3 : Ref sig .tc := ⟨.hbm, 36, rfl⟩
abbrev main_call0_v12 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_4 : Ref sig .tc := ⟨.hbm, 56, rfl⟩
abbrev main_v26 : Ref sig .tc := ⟨.hbm, 57, rfl⟩
abbrev main_v27 : Ref sig .tc := ⟨.hbm, 58, rfl⟩
abbrev main_c_5 : Ref sig .tc := ⟨.hbm, 59, rfl⟩
abbrev main_v28 : Ref sig .tc := ⟨.hbm, 60, rfl⟩
abbrev main_v29 : Ref sig .tc := ⟨.hbm, 61, rfl⟩
abbrev main_c_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩

abbrev nD : Nat := 1
abbrev τ : Topo := Topo.v7x

variable {F : FTy → Type} [FloatOps F]

class Facts₀ : Prop where
  transposes_S50000x2048_S2048x50000_1_0 : S50000x2048.Transposes [1, 0] S2048x50000
  bcast_S_S512x50000 : S_.BroadcastsInDim S512x50000 (![] : Fin 0 → Fin S512x50000.rank)
  bcast_S2048_S2048x1_0 : S2048.BroadcastsInDim S2048x1 (![0] : Fin 1 → Fin S2048x1.rank)
  transposes_S512x50000_S50000x512_1_0 : S512x50000.Transposes [1, 0] S50000x512
  bcast_S_S50000x512 : S_.BroadcastsInDim S50000x512 (![] : Fin 0 → Fin S50000x512.rank)
  reducesTo_S50000x512_S512_d0 : S50000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  bcast_S_S2048 : S_.BroadcastsInDim S2048 (![] : Fin 0 → Fin S2048.rank)
  scatter_S512x50000_S2048x1_S2048x50000_1_0_0_1_wf : ScatterDims.WF S512x50000 S2048x1 S2048x50000 [1] [0] [0] 1
  gather_S50000x512_S2048x1_S50000x2048_0_1_n_n_1_1_500001_wf : GatherDims.WF S50000x512 S2048x1 S50000x2048 [0] [1] [] [1] [] 1 ![50000, 1]

variable [Facts₀]

def scatter_S512x50000_S2048x1_S2048x50000_1_0_0_1 : ScatterDims S512x50000 S2048x1 S2048x50000 where
  updateWindowDims := [1]
  insertedWindowDims := [0]
  scatterDimsToOperandDims := [0]
  indexVectorDim := 1
  wf := scatter_S512x50000_S2048x1_S2048x50000_1_0_0_1_wf
def gather_S50000x512_S2048x1_S50000x2048_0_1_n_n_1_1_500001 : GatherDims S50000x512 S2048x1 S50000x2048 where
  offsetDims := [0]
  collapsedSliceDims := [1]
  operandBatchingDims := []
  startIndicesBatchingDims := []
  startIndexMap := [1]
  indexVectorDim := 1
  sliceSizes := ![50000, 1]
  wf := gather_S50000x512_S2048x1_S50000x2048_0_1_n_n_1_1_500001_wf

class Facts : Prop extends Facts₀ where

variable [Facts]
-- ==== Proof.RefTerm.lean ====
/-
  The reference's @main as pure terms of its three arguments, one definition per stage that the value reading
  names: the per-channel sums of squares, their floored roots `x0`, the batch mean and variance of `x0`, the
  normalised result, the divisor, and the quotient with the divisor gathered back to the columns.
-/
import proofs.«427098_j31791347925866_3_alg».proof.Proof.Gen.ReferenceIdeal

noncomputable section

namespace Cert.ReferenceIdeal.RefTerm

open Cert.ReferenceIdeal Idealize.ShloMosaic
open Cert.ReferenceIdeal.Facts₀

variable {F : FTy → Type} [FloatOps F]

/-- The squares scattered by channel, as rows × channels (`%5`). -/
def sumsq (a0 : FVec F S50000x2048 .f32) (a1 : IVec S2048 32) : FVec F S50000x512 .f32 :=
  transpose S50000x512 [1, 0]
    (Host.scatterAdd scatter_S512x50000_S2048x1_S2048x50000_1_0_0_1
      (broadcastInDim S512x50000 ![] bcast_S_S512x50000 (constant S_ .f32 0x00000000#32))
      (broadcastInDim S2048x1 ![0] bcast_S2048_S2048x1_0 a1)
      (transpose S2048x50000 [1, 0] (mulf a0 a0) transposes_S50000x2048_S2048x50000_1_0))
    transposes_S512x50000_S50000x512_1_0

/-- The floored roots (`%8`). -/
def x0 (a0 : FVec F S50000x2048 .f32) (a1 : IVec S2048 32) : FVec F S50000x512 .f32 :=
  maximumf (Host.sqrt (sumsq a0 a1)) (broadcastInDim S50000x512 ![] bcast_S_S50000x512 (constant S_ .f32 0x38D1B717#32))

/-- The batch mean (`%11`). -/
def mean (x : FVec F S50000x512 .f32) : FVec F S512 .f32 :=
  Host.divf (Host.reduceAdd x (constant S_ .f32 0x00000000#32) reducesTo_S50000x512_S512_d0 h_S_)
    (broadcastInDim S512 ![] bcast_S_S512 (constant S_ .f32 0x47435000#32))

/-- The row count less the (zero) degrees-of-freedom correction, as the variance computes it (`@_var`'s `%8`). -/
def count : FVec F S_ .f32 := subf (constant S_ .f32 0x47435000#32) (sitofp .f32 (constantI S_ 32 0#32))

/-- The squared deviations from the mean, as the variance computes them (`@_var`'s `%6`). -/
def dev2 (x : FVec F S50000x512 .f32) : FVec F S50000x512 .f32 :=
  mulf
    (subf x (broadcastInDim S50000x512 ![0, 1] bcast_S1x512_S50000x512_0_1
      (Host.divf (broadcastInDim S1x512 ![1] bcast_S512_S1x512_1 (Host.reduceAdd x (constant S_ .f32 0x00000000#32) reducesTo_S50000x512_S512_d0 h_S_))
        (broadcastInDim S1x512 ![] bcast_S_S1x512 (constant S_ .f32 0x47435000#32)))))
    (subf x (broadcastInDim S50000x512 ![0, 1] bcast_S1x512_S50000x512_0_1
      (Host.divf (broadcastInDim S1x512 ![1] bcast_S512_S1x512_1 (Host.reduceAdd x (constant S_ .f32 0x00000000#32) reducesTo_S50000x512_S512_d0 h_S_))
        (broadcastInDim S1x512 ![] bcast_S_S1x512 (constant S_ .f32 0x47435000#32)))))

/-- The batch variance (`%12`, the call of `@_var` with its `@_where` guard on the count). -/
def var (x : FVec F S50000x512 .f32) : FVec F S512 .f32 :=
  select (broadcastInDim S512 ![] bcast_S_S512 (cmpf .ogt (count (F := F)) (constant S_ .f32 0x00000000#32)))
    (Host.divf (Host.reduceAdd (dev2 x) (constant S_ .f32 0x00000000#32) reducesTo_S50000x512_S512_d0 h_S_)
      (broadcastInDim S512 ![] bcast_S_S512 (count (F := F))))
    (broadcastInDim S512 ![] bcast_S_S512 (id (constant S_ .f32 0x7FC00000#32)))

/-- The normalised result (`%21`). -/
def x1 (x : FVec F S50000x512 .f32) : FVec F S50000x512 .f32 :=
  mulf
    (subf x (broadcastInDim S50000x512 ![0, 1] bcast_S1x512_S50000x512_0_1 (broadcastInDim S1x512 ![1] bcast_S512_S1x512_1 (mean x))))
    (broadcastInDim S50000x512 ![0, 1] bcast_S1x512_S50000x512_0_1 (broadcastInDim S1x512 ![1] bcast_S512_S1x512_1
      (Host.rsqrt (addf (var x) (broadcastInDim S512 ![] bcast_S_S512 (constant S_ .f32 0x3727C5AC#32))))))

/-- The divisor (`%27`). -/
def dv (x : FVec F S50000x512 .f32) (a2 : FVec F S512 .f32) : FVec F S50000x512 .f32 :=
  addf (Host.absf (addf x (broadcastInDim S50000x512 ![0, 1] bcast_S1x512_S50000x512_0_1 (broadcastInDim S1x512 ![1] bcast_S512_S1x512_1 a2))))
    (broadcastInDim S50000x512 ![] bcast_S_S50000x512 (constant S_ .f32 0x3C23D70A#32))

/-- The column's channel as the gather takes it: a negative word wrapped by the channel count (`%32`). -/
def wrapped (a1 : IVec S2048 32) : IVec S2048 32 :=
  select (cmpi .slt a1 (broadcastInDim S2048 ![] bcast_S_S2048 (constantI S_ 32 0#32)))
    (addi a1 (broadcastInDim S2048 ![] bcast_S_S2048 (constantI S_ 32 512#32))) a1

/-- The quotient (`%35`). -/
def x2 (a0 : FVec F S50000x2048 .f32) (a1 : IVec S2048 32) (a2 : FVec F S512 .f32) : FVec F S50000x2048 .f32 :=
  Host.divf a0 (Host.gather gather_S50000x512_S2048x1_S50000x2048_0_1_n_n_1_1_500001 (dv (x0 a0 a1) a2)
    (broadcastInDim S2048x1 ![0] bcast_S2048_S2048x1_0 (wrapped a1)))

end Cert.ReferenceIdeal.RefTerm

end
-- ==== Proof.RefRun.lean ====
/-
  The reference's run: @main is a list of host operations (the two outlined functions' operations in line at their call
  sites), so every weakly fair execution terminates with each result buffer at the operations' composed term of the
  arguments' launch contents — the stages named in `RefTerm` — and the arguments unchanged.
-/
import proofs.«427098_j31791347925866_3_alg».proof.Proof.Gen.ReferenceIdeal
import proofs.«427098_j31791347925866_3_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded: seventeen of @main's own up to the mean and the integer zero;
    the variance's nineteen over the first call's buffers (the sum, the mean again, the squared deviations, the count less
    the correction, the quotient, the guard's comparison and the fill value); the guard's three over the nested call's
    buffers (the fill converted to its own type, broadcast, the select, whose result buffer is @main's `%12`); then
    @main's remaining twenty-seven (the normalised result, the divisor, the wrapped channel indices, the gather and the
    quotient). -/
abbrev ops : List (HloOp τ sig (Elt F)) :=
  [ binary main_arg0 main_arg0 main_v0 (mulf : (⟨S50000x2048, .f32⟩ : BufTy).Contents (Elt F) → (⟨S50000x2048, .f32⟩ : BufTy).Contents (Elt F) → (⟨S50000x2048, .f32⟩ : BufTy).Contents (Elt F)),
    unary main_v0 main_v1 ((transpose S2048x50000 [1, 0] · transposes_S50000x2048_S2048x50000_1_0) : (⟨S50000x2048, .f32⟩ : BufTy).Contents (Elt F) → (⟨S2048x50000, .f32⟩ : BufTy).Contents (Elt F)),
    nullary main_cst (constant S_ .f32 0x00000000#32),
    unary main_cst main_v2 (broadcastInDim S512x50000 ![] bcast_S_S512x50000 : (⟨S_, .f32⟩ : BufTy).Contents (Elt F) → (⟨S512x50000, .f32⟩ : BufTy).Contents (Elt F)),
    unary main_arg1 main_v3 (broadcastInDim S2048x1 ![0] bcast_S2048_S2048x1_0 : (⟨S2048, .i32⟩ : BufTy).Contents (Elt F) → (⟨S2048x1, .i32⟩ : BufTy).Contents (Elt F)),
    ternary main_v2 main_v3 main_v1 main_v4 ((fun x i u => Host.scatterAdd scatter_S512x50000_S2048x1_S2048x50000_1_0_0_1 x i u) : (⟨S512x50000, .f32⟩ : BufTy).Contents (Elt F) → (⟨S2048x1, .i32⟩ : BufTy).Contents (Elt F) → (⟨S2048x50000, .f32⟩ : BufTy).Contents (Elt F) → (⟨S512x50000, .f32⟩ : BufTy).Contents (Elt F)),
    unary main_v4 main_v5 ((transpose S50000x512 [1, 0] · transposes_S512x50000_S50000x512_1_0) : (⟨S512x50000, .f32⟩ : BufTy).Contents (Elt F) → (⟨S50000x512, .f32⟩ : BufTy).Contents (Elt F)),
    unary main_v5 main_v6 (Host.sqrt : (⟨S50000x512, .f32⟩ : BufTy).Contents (Elt F) → (⟨S50000x512, .f32⟩ : BufTy).Contents (Elt F)),
    nullary main_cst_0 (constant S_ .f32 0x38D1B717#32),
    unary main_cst_0 main_v7 (broadcastInDim S50000x512 ![] bcast_S_S50000x512 : (⟨S_, .f32⟩ : BufTy).Contents (Elt F) → (⟨S50000x512, .f32⟩ : BufTy).Contents (Elt F)),
    binary main_v6 main_v7 main_v8 (maximumf : (⟨S50000x512, .f32⟩ : BufTy).Contents (Elt F) → (⟨S50000x512, .f32⟩ : BufTy).Contents (Elt F) → (⟨S50000x512, .f32⟩ : BufTy).Contents (Elt F)),
    nullary main_cst_1 (constant S_ .f32 0x00000000#32),
    binary main_v8 main_cst_1 main_v9 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    nullary main_cst_2 (constant S_ .f32 0x47435000#32),
    unary main_cst_2 main_v10 (broadcastInDim S512 ![] bcast_S_S512 : (⟨S_, .f32⟩ : BufTy).Contents (Elt F) → (⟨S512, .f32⟩ : BufTy).Contents (Elt F)),
    binary main_v9 main_v10 main_v11 (Host.divf : (⟨S512, .f32⟩ : BufTy).Contents (Elt F) → (⟨S512, .f32⟩ : BufTy).Contents (Elt F) → (⟨S512, .f32⟩ : BufTy).Contents (Elt F)),
    nullary main_c (constantI S_ 32 0#32),
    TRef.nullary main_call0.cst (constant S_ .f32 0x00000000#32),
    TRef.binary (.of main_v8) main_call0.cst main_call0.v0 (fun x v => Host.reduceAdd x v reducesTo_S50000x512_S512_d0 h_S_),
    TRef.unary main_call0.v0 main_call0.v1 (broadcastInDim S1x512 ![1] bcast_S512_S1x512_1),
    TRef.nullary main_call0.cst_0 (constant S_ .f32 0x47435000#32),
    TRef.unary main_call0.cst_0 main_call0.v2 (broadcastInDim S1x512 ![] bcast_S_S1x512),
    TRef.binary main_call0.v1 main_call0.v2 main_call0.v3 Host.divf,
    TRef.unary main_call0.v3 main_call0.v4 (broadcastInDim S50000x512 ![0, 1] bcast_S1x512_S50000x512_0_1),
    TRef.binary (.of main_v8) main_call0.v4 main_call0.v5 subf,
    TRef.binary main_call0.v5 main_call0.v5 main_call0.v6 mulf,
    TRef.unary (.of main_c) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x512_S512_d0 h_S_),
    TRef.unary main_call0.v8 main_call0.v10 (broadcastInDim S512 ![] bcast_S_S512),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S512 ![] bcast_S_S512),
    TRef.ternary main_call0.v12 main_call0.v11 main_call0.call0.v1 main_call0.call0.v2 (fun p a b => select (broadcastInDim S512 ![] bcast_S_S512 p) a b),
    unary main_v11 main_v13 (broadcastInDim S1x512 ![1] bcast_S512_S1x512_1 : (⟨S512, .f32⟩ : BufTy).Contents (Elt F) → (⟨S1x512, .f32⟩ : BufTy).Contents (Elt F)),
    unary main_v13 main_v14 (broadcastInDim S50000x512 ![0, 1] bcast_S1x512_S50000x512_0_1 : (⟨S1x512, .f32⟩ : BufTy).Contents (Elt F) → (⟨S50000x512, .f32⟩ : BufTy).Contents (Elt F)),
    binary main_v8 main_v14 main_v15 (subf : (⟨S50000x512, .f32⟩ : BufTy).Contents (Elt F) → (⟨S50000x512, .f32⟩ : BufTy).Contents (Elt F) → (⟨S50000x512, .f32⟩ : BufTy).Contents (Elt F)),
    nullary main_cst_3 (constant S_ .f32 0x3727C5AC#32),
    unary main_cst_3 main_v16 (broadcastInDim S512 ![] bcast_S_S512 : (⟨S_, .f32⟩ : BufTy).Contents (Elt F) → (⟨S512, .f32⟩ : BufTy).Contents (Elt F)),
    binary main_v12 main_v16 main_v17 (addf : (⟨S512, .f32⟩ : BufTy).Contents (Elt F) → (⟨S512, .f32⟩ : BufTy).Contents (Elt F) → (⟨S512, .f32⟩ : BufTy).Contents (Elt F)),
    unary main_v17 main_v18 (Host.rsqrt : (⟨S512, .f32⟩ : BufTy).Contents (Elt F) → (⟨S512, .f32⟩ : BufTy).Contents (Elt F)),
    unary main_v18 main_v19 (broadcastInDim S1x512 ![1] bcast_S512_S1x512_1 : (⟨S512, .f32⟩ : BufTy).Contents (Elt F) → (⟨S1x512, .f32⟩ : BufTy).Contents (Elt F)),
    unary main_v19 main_v20 (broadcastInDim S50000x512 ![0, 1] bcast_S1x512_S50000x512_0_1 : (⟨S1x512, .f32⟩ : BufTy).Contents (Elt F) → (⟨S50000x512, .f32⟩ : BufTy).Contents (Elt F)),
    binary main_v15 main_v20 main_v21 (mulf : (⟨S50000x512, .f32⟩ : BufTy).Contents (Elt F) → (⟨S50000x512, .f32⟩ : BufTy).Contents (Elt F) → (⟨S50000x512, .f32⟩ : BufTy).Contents (Elt F)),
    unary main_arg2 main_v22 (broadcastInDim S1x512 ![1] bcast_S512_S1x512_1 : (⟨S512, .f32⟩ : BufTy).Contents (Elt F) → (⟨S1x512, .f32⟩ : BufTy).Contents (Elt F)),
    unary main_v22 main_v23 (broadcastInDim S50000x512 ![0, 1] bcast_S1x512_S50000x512_0_1 : (⟨S1x512, .f32⟩ : BufTy).Contents (Elt F) → (⟨S50000x512, .f32⟩ : BufTy).Contents (Elt F)),
    binary main_v8 main_v23 main_v24 (addf : (⟨S50000x512, .f32⟩ : BufTy).Contents (Elt F) → (⟨S50000x512, .f32⟩ : BufTy).Contents (Elt F) → (⟨S50000x512, .f32⟩ : BufTy).Contents (Elt F)),
    unary main_v24 main_v25 (Host.absf : (⟨S50000x512, .f32⟩ : BufTy).Contents (Elt F) → (⟨S50000x512, .f32⟩ : BufTy).Contents (Elt F)),
    nullary main_cst_4 (constant S_ .f32 0x3C23D70A#32),
    unary main_cst_4 main_v26 (broadcastInDim S50000x512 ![] bcast_S_S50000x512 : (⟨S_, .f32⟩ : BufTy).Contents (Elt F) → (⟨S50000x512, .f32⟩ : BufTy).Contents (Elt F)),
    binary main_v25 main_v26 main_v27 (addf : (⟨S50000x512, .f32⟩ : BufTy).Contents (Elt F) → (⟨S50000x512, .f32⟩ : BufTy).Contents (Elt F) → (⟨S50000x512, .f32⟩ : BufTy).Contents (Elt F)),
    nullary main_c_5 (constantI S_ 32 0#32),
    unary main_c_5 main_v28 (broadcastInDim S2048 ![] bcast_S_S2048 : (⟨S_, .i32⟩ : BufTy).Contents (Elt F) → (⟨S2048, .i32⟩ : BufTy).Contents (Elt F)),
    binary main_arg1 main_v28 main_v29 (cmpi .slt : (⟨S2048, .i32⟩ : BufTy).Contents (Elt F) → (⟨S2048, .i32⟩ : BufTy).Contents (Elt F) → (⟨S2048, .i1⟩ : BufTy).Contents (Elt F)),
    nullary main_c_6 (constantI S_ 32 512#32),
    unary main_c_6 main_v30 (broadcastInDim S2048 ![] bcast_S_S2048 : (⟨S_, .i32⟩ : BufTy).Contents (Elt F) → (⟨S2048, .i32⟩ : BufTy).Contents (Elt F)),
    binary main_arg1 main_v30 main_v31 (addi : (⟨S2048, .i32⟩ : BufTy).Contents (Elt F) → (⟨S2048, .i32⟩ : BufTy).Contents (Elt F) → (⟨S2048, .i32⟩ : BufTy).Contents (Elt F)),
    ternary main_v29 main_v31 main_arg1 main_v32 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v32 main_v33 (broadcastInDim S2048x1 ![0] bcast_S2048_S2048x1_0 : (⟨S2048, .i32⟩ : BufTy).Contents (Elt F) → (⟨S2048x1, .i32⟩ : BufTy).Contents (Elt F)),
    binary main_v27 main_v33 main_v34 ((fun x i => Host.gather gather_S50000x512_S2048x1_S50000x2048_0_1_n_n_1_1_500001 x i) : (⟨S50000x512, .f32⟩ : BufTy).Contents (Elt F) → (⟨S2048x1, .i32⟩ : BufTy).Contents (Elt F) → (⟨S50000x2048, .f32⟩ : BufTy).Contents (Elt F)),
    binary main_arg0 main_v34 main_v35 (Host.divf : (⟨S50000x2048, .f32⟩ : BufTy).Contents (Elt F) → (⟨S50000x2048, .f32⟩ : BufTy).Contents (Elt F) → (⟨S50000x2048, .f32⟩ : BufTy).Contents (Elt F)) ]

-- sixty-six binds re-associated: the rewrite under the chain recurses once per statement
set_option maxRecDepth 2048 in
/-- @main is that straight line: the functions' definitions unfolded at their calls, both sides are one chain of
    `hlo` steps once sequencing is reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., nullary_bufs_sub .., unary_bufs_sub .., unary_bufs_sub .., ternary_bufs_sub ..,
    unary_bufs_sub .., unary_bufs_sub .., nullary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..⟩

/-! The fold at each stated buffer, over any launch contents: each operation's result is read at its own result buffer
    and passed through at every other one; what is left is the stages' composed term, by unfolding their names. -/

set_option maxRecDepth 8192 in
set_option maxHeartbeats 4000000 in
theorem v21_eq (V : Valuation τ sig (Elt F)) :
    after ops V (main_v21 : DevRef τ sig)
      = RefTerm.x1 (RefTerm.x0 (V (main_arg0 : DevRef τ sig)) (V (main_arg1 : DevRef τ sig))) := by
  after_results_simp
  rfl

set_option maxRecDepth 8192 in
set_option maxHeartbeats 4000000 in
theorem v35_eq (V : Valuation τ sig (Elt F)) :
    after ops V (main_v35 : DevRef τ sig)
      = RefTerm.x2 (V (main_arg0 : DevRef τ sig)) (V (main_arg1 : DevRef τ sig)) (V (main_arg2 : DevRef τ sig)) := by
  after_results_simp
  rfl

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

/-- On every device, for any float values, from any memory with zero counters: every weakly fair execution of @main
    terminates with the two results at the stages' terms of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = RefTerm.x1 (RefTerm.x0 (m ((c.tc : Thread nD τ).loc main_arg0)) (m ((c.tc : Thread nD τ).loc main_arg1)))
      ∧ r.2.mem ((c.tc : Thread nD τ).loc main_v35)
        = RefTerm.x2 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v21).trans (v21_eq (launchContents m c)),
      (h c main_v35).trans (v35_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefRun

end
-- ==== Proof.Pre.lean ====
/-
  What the precondition says of the arguments. The predicate is the conjunction of three reductions by `and` over
  all entries: `|ten| < +∞`, `|beta| < +∞`, and `0 ≤ rep_idx < 512` (signed). An extended real whose absolute value
  is below `+∞` is a real; a 32-bit word that is non-negative and below 512 as a signed number is below 512 read
  unsigned.
-/
import proofs.«427098_j31791347925866_3_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Affine

noncomputable section

namespace Cert.PreFacts

open Idealize.ShloMosaic Idealize.ShloMosaic.ValueIdx Cert.Pre_finite_inputs

/-- The word of `+∞`. -/
theorem inf_word : Ideal.ofBits .f32 0x7F800000#32 = ⊤ := by simp [Ideal.ofBits, Ideal.ieee]

/-- An extended real whose absolute value compares below `+∞` is a real. -/
theorem real_of_abs_lt_inf {x : EReal}
    (h : Ideal.cmp .olt (max x (-x)) (Ideal.ofBits .f32 0x7F800000#32) = 1#1) : ∃ r : ℝ, x = r := by
  rw [inf_word] at h
  have hlt : max x (-x) < ⊤ := by
    by_contra hn
    simp [Ideal.cmp, hn] at h
  induction x using EReal.rec with
  | bot => simp at hlt
  | top => simp at hlt
  | coe r => exact ⟨r, rfl⟩

/-- A word that is at least zero and below 512 as a signed number is below 512 read unsigned. -/
theorem toNat_lt_of_signed (w : BitVec 32) (h1 : IntOp.cmpi .sge w 0#32 = 1#1) (h2 : IntOp.cmpi .slt w 512#32 = 1#1) :
    w.toNat < 512 := by
  have a : (0#32 : BitVec 32).sle w = true := by
    cases hs : (0#32 : BitVec 32).sle w with
    | true => rfl
    | false => simp [IntOp.cmpi, hs] at h1
  have b : w.slt 512#32 = true := by
    cases hs : w.slt 512#32 with
    | true => rfl
    | false => simp [IntOp.cmpi, hs] at h2
  simp only [BitVec.sle, BitVec.slt, decide_eq_true_eq] at a b
  have z : (0#32 : BitVec 32).toInt = 0 := by decide
  have f : (512#32 : BitVec 32).toInt = 512 := by decide
  rw [z] at a
  rw [f] at b
  have hw : w.toNat < 4294967296 := w.isLt
  have e := BitVec.toInt_eq_toNat_cond w
  have p : (2 : ℕ) ^ 32 = 4294967296 := by norm_num
  rw [p] at e
  split_ifs at e <;> omega

variable [Cert.Pre_finite_inputs.Facts]

instance : Subsingleton S_.Idx := ⟨fun a b => funext fun d => d.elim0⟩

/-- Under the precondition the two float arguments hold reals and every index word is below the channel count. -/
theorem decode (a0 : S50000x2048.Idx → EReal) (a1 : S2048.Idx → BitVec 32) (a2 : S512.Idx → EReal)
    (h : Cert.Pre_finite_inputs.fn (F := Ideal) a0 a1 a2 = fun _ => 1#1) :
    (∀ i, ∃ r : ℝ, a0 i = r) ∧ (∀ i, ∃ r : ℝ, a2 i = r) ∧ (∀ d : Fin 2048, (a1 (ix1 d)).toNat < 512) := by
  have h0 := congrFun h ix0
  dsimp only [Cert.Pre_finite_inputs.fn] at h0
  obtain ⟨h12, h3⟩ := IntOp.andi_eq_one.mp h0
  obtain ⟨h1, h2⟩ := IntOp.andi_eq_one.mp h12
  have f1 := Host.reduce_andi_all _ _ _ _ ix0 h1
  have f2 := Host.reduce_andi_all _ _ _ _ ix0 h2
  have f3 := Host.reduce_andi_all _ _ _ _ ix0 h3
  refine ⟨fun i => real_of_abs_lt_inf (f1 i), fun i => real_of_abs_lt_inf (f2 i), fun d => ?_⟩
  obtain ⟨g1, g2⟩ := IntOp.andi_eq_one.mp (f3 (ix1 d))
  exact toNat_lt_of_signed _ g1 g2

end Cert.PreFacts

end
-- ==== Proof.Forms.lean ====
/-
  The mathematics of the two programs, index by index over the extended reals, in the forms the two value
  readings arrive at. `t n d` is the input array, `ch d` the channel of column `d` (the index word read
  unsigned), `b c` the per-channel shift.

  * `sumsq`: the squares of row `n` summed over the columns of channel `c`;  `x0` its root, floored.
  * `dv`: the divisor `|x0 + b| + eps`.
  * the batch statistics in the two arrangements: the kernel sums each tile of 400 rows and then the 125 tile
    sums and takes the variance as `E[x²] − mean²`; the reference sums all 50000 rows and takes the mean of the
    squared deviations.
  * `x1`: the normalised value from a mean and a variance.
  * `x2K` / `x2R`: the quotient with the divisor routed to the column's channel — by a product with the
    0/1 routing row, done twice (the value and its zero remainder), or read at the channel directly.
-/
import Idealize.ShloMosaic.PureOps.Ideal
import Idealize.ShloMosaic.Lib.ValueIdx

noncomputable section

namespace Cert.Forms

open Idealize.ShloMosaic

/-- The four float literals both programs carry, as the extended reals their words denote. -/
def E4 : EReal := Ideal.ofBits .f32 0x38D1B717#32
def E2 : EReal := Ideal.ofBits .f32 0x3C23D70A#32
def E5 : EReal := Ideal.ofBits .f32 0x3727C5AC#32
def NN : EReal := Ideal.ofBits .f32 0x47435000#32

/-- Row `i` of tile `g`: tiles of 400 rows. -/
def blk (g : Fin 125) (i : Fin 400) : Fin 50000 := ⟨400 * g.val + i.val, by have := g.isLt; have := i.isLt; omega⟩

/-- The 0/1 routing entry: column `d` belongs to channel `c`. -/
def oh (ch : Fin 2048 → ℕ) (c : Fin 512) (d : Fin 2048) : EReal := if ch d = c.val then 1 else 0

def sumsq (t : Fin 50000 → Fin 2048 → EReal) (ch : Fin 2048 → ℕ) (n : Fin 50000) (c : Fin 512) : EReal :=
  ∑ d : Fin 2048, if ch d = c.val then t n d * t n d else 0

def x0 (t : Fin 50000 → Fin 2048 → EReal) (ch : Fin 2048 → ℕ) (n : Fin 50000) (c : Fin 512) : EReal :=
  max (Ideal.sqrt (sumsq t ch n c)) E4

def dv (x : Fin 50000 → Fin 512 → EReal) (b : Fin 512 → EReal) (n : Fin 50000) (c : Fin 512) : EReal :=
  max (x n c + b c) (-(x n c + b c)) + E2

/-- A tile's column sum and column sum of squares. -/
def ps (x : Fin 50000 → Fin 512 → EReal) (g : Fin 125) (c : Fin 512) : EReal := ∑ i : Fin 400, x (blk g i) c
def pss (x : Fin 50000 → Fin 512 → EReal) (g : Fin 125) (c : Fin 512) : EReal := ∑ i : Fin 400, x (blk g i) c * x (blk g i) c

def meanK (x : Fin 50000 → Fin 512 → EReal) (c : Fin 512) : EReal := Ideal.div (∑ g : Fin 125, ps x g c) NN
def varK (x : Fin 50000 → Fin 512 → EReal) (c : Fin 512) : EReal :=
  Ideal.div (∑ g : Fin 125, pss x g c) NN - meanK x c * meanK x c

def meanR (x : Fin 50000 → Fin 512 → EReal) (c : Fin 512) : EReal := Ideal.div (∑ n : Fin 50000, x n c) NN
def varR (x : Fin 50000 → Fin 512 → EReal) (c : Fin 512) : EReal :=
  Ideal.div (∑ n : Fin 50000, (x n c - meanR x c) * (x n c - meanR x c)) NN

def x1 (x : Fin 50000 → Fin 512 → EReal) (mean var : Fin 512 → EReal) (n : Fin 50000) (c : Fin 512) : EReal :=
  (x n c - mean c) * Ideal.rsqrt (var c + E5)

def x2K (t : Fin 50000 → Fin 2048 → EReal) (ch : Fin 2048 → ℕ) (b : Fin 512 → EReal) (n : Fin 50000) (d : Fin 2048) : EReal :=
  Ideal.div (t n d)
    ((∑ c : Fin 512, dv (x0 t ch) b n c * oh ch c d)
      + ∑ c : Fin 512, (dv (x0 t ch) b n c - dv (x0 t ch) b n c) * oh ch c d)

def x2R (t : Fin 50000 → Fin 2048 → EReal) (ch : Fin 2048 → ℕ) (b : Fin 512 → EReal) (hin : ∀ d, ch d < 512)
    (n : Fin 50000) (d : Fin 2048) : EReal :=
  Ideal.div (t n d) (dv (x0 t ch) b n ⟨ch d, hin d⟩)

end Cert.Forms

end
-- ==== Proof.KHost.lean ====
/-
  The two stretches of host operations of the kernel's program, read at an index, from any contents `W` of the
  buffers before the stretch. The first builds the two 0/1 routing matrices from the index words (an entry is one
  exactly where the column's word is the channel's number) and lays the shift out as a row; the second adds the
  125 tile sums of each statistic, divides by the row count, and forms `E[x²] − mean²`.
-/
import proofs.«427098_j31791347925866_3_alg».proof.Proof.Gen.KernelIdeal.Frame
import proofs.«427098_j31791347925866_3_alg».proof.Proof.Forms
import Idealize.ShloMosaic.PureOps.Ideal.Laws
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.ValueLayout
import Idealize.ShloMosaic.Lib.IdealHost

set_option maxRecDepth 16384

noncomputable section

namespace Cert.KernelIdeal.KHost

open Cert.KernelIdeal Cert.KernelIdeal.Gen
open Idealize.ShloMosaic Idealize.ShloMosaic.TcCoe Idealize.SL.Sem Idealize.ShloMosaic.ValueIdx

variable (W : Valuation τ sig (Elt Ideal))

/-- The buffers the stretches read and write, each at its literal type. -/
abbrev idxW : S2048.Idx → BitVec 32 := W (Proc.devRef .tc main_arg1)
abbrev betaW : S512.Idx → EReal := W (Proc.devRef .tc main_arg2)
abbrev psumW : S125x8x512.Idx → EReal := W (Proc.devRef .tc main_v14_2)
abbrev psumsqW : S125x8x512.Idx → EReal := W (Proc.devRef .tc main_v14_3)
abbrev oaW : S2048x512.Idx → EReal := StableHlo.after hostOps0 W (Proc.devRef .tc main_v6)
abbrev obW : S512x2048.Idx → EReal := StableHlo.after hostOps0 W (Proc.devRef .tc main_v12)
abbrev b2W : S1x512.Idx → EReal := StableHlo.after hostOps0 W (Proc.devRef .tc main_v13)
abbrev meanW : S1x512.Idx → EReal := StableHlo.after hostOps1 W (Proc.devRef .tc main_v23)
abbrev varW : S1x512.Idx → EReal := StableHlo.after hostOps1 W (Proc.devRef .tc main_v28)

/-! ## The operations' terms read at an index, over variables of the literal array types -/

/-- A word is the number `j` written at width 32 exactly when its unsigned value is `j`. -/
theorem word_eq_ofNat_iff (a : BitVec 32) (j : Nat) (hj : j < 512) : a = BitVec.ofNat 32 j ↔ a.toNat = j := by
  constructor
  · intro h; rw [h, BitVec.toNat_ofNat]; exact Nat.mod_eq_of_lt (by omega)
  · intro h; apply BitVec.eq_of_toNat_eq; rw [BitVec.toNat_ofNat, h]; exact (Nat.mod_eq_of_lt (by omega)).symm

/-- The one-bit compare of a word with the channel number, converted unsigned: 1 where they agree, else 0. -/
theorem bit_of_eq (a : BitVec 32) (j : Nat) (hj : j < 512) :
    (((IntOp.cmpi .eq a (BitVec.ofNat 32 j)).toNat : ℝ) : EReal) = if a.toNat = j then 1 else 0 := by
  by_cases h : a.toNat = j
  · rw [if_pos h, StableHlo.Predicate.cmpi_eq_iff.mpr ((word_eq_ofNat_iff a j hj).mpr h)]
    norm_num
  · rw [if_neg h, eq_zero_of_ne_one (fun e => h ((word_eq_ofNat_iff a j hj).mp (StableHlo.Predicate.cmpi_eq_iff.mp e)))]
    norm_num

/-- The same with the channel number on the left of the compare. -/
theorem bit_of_eq_left (a : BitVec 32) (j : Nat) (hj : j < 512) :
    (((IntOp.cmpi .eq (BitVec.ofNat 32 j) a).toNat : ℝ) : EReal) = if a.toNat = j then 1 else 0 := by
  by_cases h : a.toNat = j
  · rw [if_pos h, StableHlo.Predicate.cmpi_eq_iff.mpr ((word_eq_ofNat_iff a j hj).mpr h).symm]
    norm_num
  · rw [if_neg h, eq_zero_of_ne_one (fun e => h ((word_eq_ofNat_iff a j hj).mp (StableHlo.Predicate.cmpi_eq_iff.mp e).symm))]
    norm_num

/-- The first routing matrix's term read at (column, channel). -/
theorem oa_aux (x : S2048.Idx → BitVec 32) (k : Fin 2048) (j : Fin 512) :
    (uitofp (F := Ideal) .bf16 (cmpi .eq
        (broadcastInDim S2048x512 ![0, 1] bcast_S2048x1_S2048x512_0_1 (broadcastInDim S2048x1 ![0] bcast_S2048_S2048x1_0 x))
        (broadcastInDim S2048x512 ![0, 1] bcast_S1x512_S2048x512_0_1 (broadcastInDim S1x512 ![1] bcast_S512_S1x512_1 (iotaInDim S512 32 0)))))
      (ix2 k j) = if (x (ix1 k)).toNat = j.val then 1 else 0 := by
  have hA : broadcastInDim S2048x512 ![0, 1] bcast_S2048x1_S2048x512_0_1 (broadcastInDim S2048x1 ![0] bcast_S2048_S2048x1_0 x) (ix2 k j) = x (ix1 k) :=
    (broadcastInDim_apply _ _ _ (ix2 k j) (ix2 k (0 : Fin 1)) (fun a => match a with | ⟨0, _⟩ => rfl | ⟨1, _⟩ => rfl)).trans
      (broadcastInDim_apply _ _ _ (ix2 k (0 : Fin 1)) (ix1 k) (fun a => match a with | ⟨0, _⟩ => rfl))
  have hB : broadcastInDim S2048x512 ![0, 1] bcast_S1x512_S2048x512_0_1 (broadcastInDim S1x512 ![1] bcast_S512_S1x512_1 (iotaInDim S512 32 0)) (ix2 k j) = BitVec.ofNat 32 j.val :=
    (broadcastInDim_apply _ _ _ (ix2 k j) (ix2 (0 : Fin 1) j) (fun a => match a with | ⟨0, _⟩ => rfl | ⟨1, _⟩ => rfl)).trans
      (broadcastInDim_apply _ _ _ (ix2 (0 : Fin 1) j) (ix1 j) (fun a => match a with | ⟨0, _⟩ => rfl))
  show (((IntOp.cmpi .eq (broadcastInDim S2048x512 ![0, 1] bcast_S2048x1_S2048x512_0_1 (broadcastInDim S2048x1 ![0] bcast_S2048_S2048x1_0 x) (ix2 k j))
      (broadcastInDim S2048x512 ![0, 1] bcast_S1x512_S2048x512_0_1 (broadcastInDim S1x512 ![1] bcast_S512_S1x512_1 (iotaInDim S512 32 0)) (ix2 k j))).toNat : ℝ) : EReal) = _
  rw [hA, hB]
  exact bit_of_eq (x (ix1 k)) j.val j.isLt

/-- The second routing matrix's term read at (channel, column). -/
theorem ob_aux (x : S2048.Idx → BitVec 32) (j : Fin 512) (d : Fin 2048) :
    (uitofp (F := Ideal) .bf16 (cmpi .eq
        (broadcastInDim S512x2048 ![0, 1] bcast_S512x1_S512x2048_0_1 (broadcastInDim S512x1 ![0] bcast_S512_S512x1_0 (iotaInDim S512 32 0)))
        (broadcastInDim S512x2048 ![0, 1] bcast_S1x2048_S512x2048_0_1 (broadcastInDim S1x2048 ![1] bcast_S2048_S1x2048_1 x))))
      (ix2 j d) = if (x (ix1 d)).toNat = j.val then 1 else 0 := by
  have hA : broadcastInDim S512x2048 ![0, 1] bcast_S512x1_S512x2048_0_1 (broadcastInDim S512x1 ![0] bcast_S512_S512x1_0 (iotaInDim S512 32 0)) (ix2 j d) = BitVec.ofNat 32 j.val :=
    (broadcastInDim_apply _ _ _ (ix2 j d) (ix2 j (0 : Fin 1)) (fun a => match a with | ⟨0, _⟩ => rfl | ⟨1, _⟩ => rfl)).trans
      (broadcastInDim_apply _ _ _ (ix2 j (0 : Fin 1)) (ix1 j) (fun a => match a with | ⟨0, _⟩ => rfl))
  have hB : broadcastInDim S512x2048 ![0, 1] bcast_S1x2048_S512x2048_0_1 (broadcastInDim S1x2048 ![1] bcast_S2048_S1x2048_1 x) (ix2 j d) = x (ix1 d) :=
    (broadcastInDim_apply _ _ _ (ix2 j d) (ix2 (0 : Fin 1) d) (fun a => match a with | ⟨0, _⟩ => rfl | ⟨1, _⟩ => rfl)).trans
      (broadcastInDim_apply _ _ _ (ix2 (0 : Fin 1) d) (ix1 d) (fun a => match a with | ⟨0, _⟩ => rfl))
  show (((IntOp.cmpi .eq (broadcastInDim S512x2048 ![0, 1] bcast_S512x1_S512x2048_0_1 (broadcastInDim S512x1 ![0] bcast_S512_S512x1_0 (iotaInDim S512 32 0)) (ix2 j d))
      (broadcastInDim S512x2048 ![0, 1] bcast_S1x2048_S512x2048_0_1 (broadcastInDim S1x2048 ![1] bcast_S2048_S1x2048_1 x) (ix2 j d))).toNat : ℝ) : EReal) = _
  rw [hA, hB]
  exact bit_of_eq_left (x (ix1 d)) j.val j.isLt

/-- Row `g` of the tile sums: the slice at replicated row 0 with its unit axis dropped. -/
theorem row0_aux (p : S125x8x512.Idx → EReal) (g : Fin 125) (j : Fin 512) :
    shapeCast S125x512 (extractStridedSlice S125x1x512 ![0, 0, 0] p slices_S125x8x512_S125x1x512_0_0_0) shapeCasts_S125x1x512_S125x512 (ix2 g j)
      = p (ix3 g (0 : Fin 8) j) :=
  (shapeCast_apply _ _ (ix2 g j) (ix3 g (0 : Fin 1) j) (by
      rw [Shape.rowMajor_val_three, Shape.rowMajor_val_two]
      show (g.val * 1 + 0) * 512 + j.val = g.val * 512 + j.val
      omega)).trans
    (extractStridedSlice_apply _ _ _ (ix3 g (0 : Fin 1) j) (ix3 g (0 : Fin 8) j) (fun a => match a with
      | ⟨0, _⟩ => (Nat.zero_add _).symm | ⟨1, _⟩ => rfl | ⟨2, _⟩ => (Nat.zero_add _).symm))

/-- The host's sum over the leading axis from a zero initial word is the plain sum of the 125 rows. -/
theorem colsum_aux (y : S125x512.Idx → EReal) (j : Fin 512) :
    Host.reduceAdd (F := Ideal) (φ := .f32) y (constant (F := Ideal) S_ .f32 0x00000000#32) reducesTo_S125x512_S512_d0 h_S_ (ix1 j)
      = ∑ g : Fin 125, y (ix2 g j) := by
  have hR : S125x512.Reduces [0] S512 := by decide
  rw [hostReduceAdd_apply, Ideal.hostReduceAdd_single _ hR]
  show Ideal.ofBits .f32 0x00000000#32 + ∑ g : Fin 125, y (hR.lift (ix1 j) g) = _
  rw [Ideal.ofBits_zero_f32, zero_add]
  exact Finset.sum_congr rfl fun g _ => congrArg y (funext fun a => match a with
    | ⟨0, _⟩ => Fin.ext rfl | ⟨1, _⟩ => Fin.ext rfl)

/-- A statistic's tile sums added and divided by the row count. -/
theorem stat_aux (p : S125x8x512.Idx → EReal) (j : Fin 512) :
    Host.divf (F := Ideal) (φ := .f32)
        (Host.reduceAdd (F := Ideal) (φ := .f32)
          (shapeCast S125x512 (extractStridedSlice S125x1x512 ![0, 0, 0] p slices_S125x8x512_S125x1x512_0_0_0) shapeCasts_S125x1x512_S125x512)
          (constant (F := Ideal) S_ .f32 0x00000000#32) reducesTo_S125x512_S512_d0 h_S_)
        (broadcastInDim S512 ![] bcast_S_S512 (constant (F := Ideal) S_ .f32 0x47435000#32)) (ix1 j)
      = Ideal.div (∑ g : Fin 125, p (ix3 g (0 : Fin 8) j)) Forms.NN := by
  rw [hostDivf_apply, colsum_aux, broadcastInDim_scalar_apply, Finset.sum_congr rfl fun g _ => row0_aux p g j]
  rfl

/-! ## The two stretches -/

/-- The routing matrix columns × channels: one where the column's index word, read unsigned, is the channel. -/
theorem h0_oa (k : Fin 2048) (j : Fin 512) :
    oaW W (ix2 k j) = if (idxW W (ix1 k)).toNat = j.val then 1 else 0 := by
  have e : oaW W = uitofp (F := Ideal) .bf16 (cmpi .eq
        (broadcastInDim S2048x512 ![0, 1] bcast_S2048x1_S2048x512_0_1 (broadcastInDim S2048x1 ![0] bcast_S2048_S2048x1_0 (idxW W)))
        (broadcastInDim S2048x512 ![0, 1] bcast_S1x512_S2048x512_0_1 (broadcastInDim S1x512 ![1] bcast_S512_S1x512_1 (iotaInDim S512 32 0)))) := by
    show StableHlo.after hostOps0 W (Proc.devRef .tc main_v6) = _
    after_results
    all_goals rfl
  rw [e]
  exact oa_aux (idxW W) k j

/-- The routing matrix channels × columns. -/
theorem h0_ob (j : Fin 512) (d : Fin 2048) :
    obW W (ix2 j d) = if (idxW W (ix1 d)).toNat = j.val then 1 else 0 := by
  have e : obW W = uitofp (F := Ideal) .bf16 (cmpi .eq
        (broadcastInDim S512x2048 ![0, 1] bcast_S512x1_S512x2048_0_1 (broadcastInDim S512x1 ![0] bcast_S512_S512x1_0 (iotaInDim S512 32 0)))
        (broadcastInDim S512x2048 ![0, 1] bcast_S1x2048_S512x2048_0_1 (broadcastInDim S1x2048 ![1] bcast_S2048_S1x2048_1 (idxW W)))) := by
    show StableHlo.after hostOps0 W (Proc.devRef .tc main_v12) = _
    after_results
    all_goals rfl
  rw [e]
  exact ob_aux (idxW W) j d

/-- The shift as a one-row matrix. -/
theorem h0_b2 (j : Fin 512) : b2W W (ix2 (0 : Fin 1) j) = betaW W (ix1 j) := by
  have e : b2W W = shapeCast S1x512 (betaW W) shapeCasts_S512_S1x512 := by
    show StableHlo.after hostOps0 W (Proc.devRef .tc main_v13) = _
    after_results
    all_goals rfl
  rw [e]
  exact shapeCast_a_1a_apply _ _ _ _

/-- The first stretch writes no argument. -/
theorem h0_arg0 : StableHlo.after hostOps0 W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-- The mean: the tile sums (row 0 of each tile's 8 replicated rows) added and divided by the row count. -/
theorem h1_mean (j : Fin 512) :
    meanW W (ix2 (0 : Fin 1) j) = Ideal.div (∑ g : Fin 125, psumW W (ix3 g (0 : Fin 8) j)) Forms.NN := by
  have e : meanW W = shapeCast S1x512 (Host.divf (F := Ideal) (φ := .f32)
        (Host.reduceAdd (F := Ideal) (φ := .f32)
          (shapeCast S125x512 (extractStridedSlice S125x1x512 ![0, 0, 0] (psumW W) slices_S125x8x512_S125x1x512_0_0_0) shapeCasts_S125x1x512_S125x512)
          (constant (F := Ideal) S_ .f32 0x00000000#32) reducesTo_S125x512_S512_d0 h_S_)
        (broadcastInDim S512 ![] bcast_S_S512 (constant (F := Ideal) S_ .f32 0x47435000#32))) shapeCasts_S512_S1x512 := by
    show StableHlo.after hostOps1 W (Proc.devRef .tc main_v23) = _
    after_results
    all_goals rfl
  rw [e, shapeCast_a_1a_apply]
  exact stat_aux (psumW W) j

/-- The variance: the mean of the squares less the squared mean. -/
theorem h1_var (j : Fin 512) :
    varW W (ix2 (0 : Fin 1) j)
      = Ideal.div (∑ g : Fin 125, psumsqW W (ix3 g (0 : Fin 8) j)) Forms.NN
        - Ideal.div (∑ g : Fin 125, psumW W (ix3 g (0 : Fin 8) j)) Forms.NN
          * Ideal.div (∑ g : Fin 125, psumW W (ix3 g (0 : Fin 8) j)) Forms.NN := by
  have e : varW W = subf (F := Ideal) (φ := .f32)
      (broadcastInDim S1x512 ![1] bcast_S512_S1x512_1 (Host.divf (F := Ideal) (φ := .f32)
        (Host.reduceAdd (F := Ideal) (φ := .f32)
          (shapeCast S125x512 (extractStridedSlice S125x1x512 ![0, 0, 0] (psumsqW W) slices_S125x8x512_S125x1x512_0_0_0) shapeCasts_S125x1x512_S125x512)
          (constant (F := Ideal) S_ .f32 0x00000000#32) reducesTo_S125x512_S512_d0 h_S_)
        (broadcastInDim S512 ![] bcast_S_S512 (constant (F := Ideal) S_ .f32 0x47435000#32))))
      (mulf (F := Ideal) (φ := .f32) (meanW W) (meanW W)) := by
    show StableHlo.after hostOps1 W (Proc.devRef .tc main_v28) = _
    after_results
    all_goals rfl
  rw [e, subf_apply, mulf_apply, h1_mean,
    broadcastInDim_apply _ _ _ (ix2 (0 : Fin 1) j) (ix1 j) (fun a => match a with | ⟨0, _⟩ => rfl), stat_aux]

/-- The second stretch leaves the first region's two other outputs as they were. -/
theorem h1_x0 : StableHlo.after hostOps1 W (Proc.devRef .tc main_v14_1) = W (Proc.devRef .tc main_v14_1) :=
  StableHlo.after_of_forall_not_mem (b := Proc.devRef .tc main_v14_1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem h1_x2 : StableHlo.after hostOps1 W (Proc.devRef .tc main_v14_0) = W (Proc.devRef .tc main_v14_0) :=
  StableHlo.after_of_forall_not_mem (b := Proc.devRef .tc main_v14_0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.KernelIdeal.KHost

end
-- ==== Proof.KReg0.lean ====
/-
  The first region's four output arrays after its 125 points, from any contents `V` of the buffers at the region's
  entry: point `g` reads rows `400 g … 400 g + 399` of the input and the whole routing matrices and shift, and writes
  back the same rows of the quotient and of the floored roots, and tile `g` of the two statistics (the tile's column
  sums, replicated over 8 rows).
-/
import proofs.«427098_j31791347925866_3_alg».proof.Proof.Gen.KernelIdeal.Frame
import proofs.«427098_j31791347925866_3_alg».proof.Proof.Forms
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KReg0

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

/-- The region's input arrays as it finds them, and its output arrays after its last point, each at its literal type. -/
abbrev tenV (c : Dev nD) : S50000x2048.Idx → EReal := V c main_arg0
abbrev oaV (c : Dev nD) : S2048x512.Idx → EReal := V c main_v6
abbrev obV (c : Dev nD) : S512x2048.Idx → EReal := V c main_v12
abbrev b2V (c : Dev nD) : S1x512.Idx → EReal := V c main_v13
abbrev x2Arr (c : Dev nD) : S50000x2048.Idx → EReal := (dat0 V c).arrAt 4 cfg0.N
abbrev x0Arr (c : Dev nD) : S50000x512.Idx → EReal := (dat0 V c).arrAt 5 cfg0.N
abbrev psumArr (c : Dev nD) : S125x8x512.Idx → EReal := (dat0 V c).arrAt 6 cfg0.N
abbrev psumsqArr (c : Dev nD) : S125x8x512.Idx → EReal := (dat0 V c).arrAt 7 cfg0.N

/-- The floored root at row `n`, channel `j`, over the region's inputs as it finds them. -/
def x0V (c : Dev nD) (n : Fin 50000) (j : Fin 512) : EReal :=
  max (Ideal.sqrt (∑ k : Fin 2048, (tenV V c (ix2 n k) * tenV V c (ix2 n k)) * oaV V c (ix2 k j))) Forms.E4

/-- The divisor at row `n`, channel `j`. -/
def dvV (c : Dev nD) (n : Fin 50000) (j : Fin 512) : EReal :=
  max (x0V V c n j + b2V V c (ix2 (0 : Fin 1) j)) (-(x0V V c n j + b2V V c (ix2 (0 : Fin 1) j))) + Forms.E2

/-! ## The matrix product's operand indices, axis by axis

The product contracts the left operand's axis 1 with the right operand's axis 0; the left operand's axis 0 is the
result's row and the right operand's axis 1 the result's column. -/

theorem lhs_rootdot_0 (i : S400x512.Idx) (q : dot_S400x2048_S2048x512_S400x512_1_0_0_1_n_n.contr.Idx) :
    (dot_S400x2048_S2048x512_S400x512_1_0_0_1_n_n.lhsIdx i q 0).val = (i 0).val := by
  unfold DotDims.lhsIdx
  rw [dif_neg (show ¬(0 : Fin S400x2048.rank) ∈ dot_S400x2048_S2048x512_S400x512_1_0_0_1_n_n.lhsBatch by decide), dif_pos (show (0 : Fin S400x2048.rank) ∈ dot_S400x2048_S2048x512_S400x512_1_0_0_1_n_n.lhsNonContracting by decide)]
  rfl
theorem lhs_rootdot_1 (i : S400x512.Idx) (q : dot_S400x2048_S2048x512_S400x512_1_0_0_1_n_n.contr.Idx) :
    (dot_S400x2048_S2048x512_S400x512_1_0_0_1_n_n.lhsIdx i q 1).val = (q ⟨0, by decide⟩).val :=
  dot_S400x2048_S2048x512_S400x512_1_0_0_1_n_n.lhsIdx_val_of_single rfl i q
theorem rhs_rootdot_0 (i : S400x512.Idx) (q : dot_S400x2048_S2048x512_S400x512_1_0_0_1_n_n.contr.Idx) :
    (dot_S400x2048_S2048x512_S400x512_1_0_0_1_n_n.rhsIdx i q 0).val = (q ⟨0, by decide⟩).val :=
  dot_S400x2048_S2048x512_S400x512_1_0_0_1_n_n.rhsIdx_val_of_single rfl i q
theorem rhs_rootdot_1 (i : S400x512.Idx) (q : dot_S400x2048_S2048x512_S400x512_1_0_0_1_n_n.contr.Idx) :
    (dot_S400x2048_S2048x512_S400x512_1_0_0_1_n_n.rhsIdx i q 1).val = (i 1).val := by
  unfold DotDims.rhsIdx
  rw [dif_neg (show ¬(1 : Fin S2048x512.rank) ∈ dot_S400x2048_S2048x512_S400x512_1_0_0_1_n_n.rhsBatch by decide), dif_pos (show (1 : Fin S2048x512.rank) ∈ dot_S400x2048_S2048x512_S400x512_1_0_0_1_n_n.rhsNonContracting by decide)]
  rfl

/-- The product into a zero accumulator at row `p`, column `j`: the sum over the 2048 contracted columns. -/
theorem rootdot_apply (a : FVec Ideal S400x2048 .bf16) (b : FVec Ideal S2048x512 .bf16) (p : Fin 400) (j : Fin 512) :
    matmul dot_S400x2048_S2048x512_S400x512_1_0_0_1_n_n none a b (constant (F := Ideal) S400x512 .f32 0x00000000#32) (ix2 p j)
      = ∑ k : Fin 2048, a (ix2 p k) * b (ix2 k j) := by
  show FloatOps.matmul dot_S400x2048_S2048x512_S400x512_1_0_0_1_n_n none a b (constant (F := Ideal) S400x512 .f32 0x00000000#32) (ix2 p j) = _
  rw [Ideal.matmul_constant_zero_apply, ← Equiv.sum_comp (contrEquiv1 dot_S400x2048_S2048x512_S400x512_1_0_0_1_n_n 2048 rfl rfl).symm]
  refine Finset.sum_congr rfl fun k _ => ?_
  have hk := contrEquiv1_symm_val dot_S400x2048_S2048x512_S400x512_1_0_0_1_n_n 2048 rfl rfl k
  have el : dot_S400x2048_S2048x512_S400x512_1_0_0_1_n_n.lhsIdx (ix2 p j) ((contrEquiv1 dot_S400x2048_S2048x512_S400x512_1_0_0_1_n_n 2048 rfl rfl).symm k) = ix2 p k := funext fun a => Fin.ext (by
    match a with
    | ⟨0, _⟩ => exact lhs_rootdot_0 _ _
    | ⟨1, _⟩ => exact (lhs_rootdot_1 _ _).trans hk)
  have er : dot_S400x2048_S2048x512_S400x512_1_0_0_1_n_n.rhsIdx (ix2 p j) ((contrEquiv1 dot_S400x2048_S2048x512_S400x512_1_0_0_1_n_n 2048 rfl rfl).symm k) = ix2 k j := funext fun a => Fin.ext (by
    match a with
    | ⟨0, _⟩ => exact (rhs_rootdot_0 _ _).trans hk
    | ⟨1, _⟩ => exact rhs_rootdot_1 _ _)
  rw [el, er]

/-- The body's floored root at row `p`, channel `j` of a tile, from the loaded input tile and routing matrix. -/
theorem pay2_apply (v0 : Vec Ideal S400x2048 .f32) (v3 : Vec Ideal S2048x512 .bf16) (p : Fin 400) (j : Fin 512) :
    k0_pay2 v0 v3 (ix2 p j) = max (Ideal.sqrt (∑ k : Fin 2048, (v0 (ix2 p k) * v0 (ix2 p k)) * v3 (ix2 k j))) Forms.E4 := by
  unfold k0_pay2
  rw [shapeCast_self]
  show max (Ideal.sqrt (matmul dot_S400x2048_S2048x512_S400x512_1_0_0_1_n_n none (truncf .bf16 (mulf v0 v0) bitsLt_bf16_f32) v3 (constant (F := Ideal) S400x512 .f32 0x00000000#32) (ix2 p j))) Forms.E4 = _
  rw [rootdot_apply]
  rfl

/-! ## From the tiles to the arrays -/

theorem zero_off2 : (![0, 0] : Fin 2 → Nat) = fun _ => 0 := funext fun a => by fin_cases a <;> rfl
theorem zero_off3 : (![0, 0, 0] : Fin 3 → Nat) = fun _ => 0 := funext fun a => by fin_cases a <;> rfl

/-- Grid point `t` as a tile number. -/
def tileOf (t : Fin cfg0.N) : Fin 125 := ⟨t.val, by have h : cfg0.N = 125 := N_0; have := t.isLt; omega⟩

/-- The printed index maps, decided over the 125 points: the input tile and the three output tiles are at block row `t`,
    the routing matrix is one block. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The input tile at point `t` is rows `400 t … 400 t + 399` of the input. -/
theorem ten_tile (c : Dev nD) (t : Fin cfg0.N) (p : Fin 400) (k : Fin 2048) :
    (iblk0 V c 0 t : Vec Ideal S400x2048 .f32) (ix2 p k) = tenV V c (ix2 (Forms.blk (tileOf t) p) k) := by
  obtain ⟨e0, e1, -⟩ := tile_index t
  unfold iblk0
  rw [View.read_apply]
  show V c main_arg0 _ = V c main_arg0 _
  congr 1
  funext a
  apply Fin.ext
  match a with
  | ⟨0, _⟩ => show win0_0.index t (0 : Fin 2) * 400 + 1 * p.val = 400 * t.val + p.val; rw [e0]; omega
  | ⟨1, _⟩ => show win0_0.index t (1 : Fin 2) * 2048 + 1 * k.val = k.val; rw [e1]; omega

/-- The routing matrix's one block is the matrix. -/
theorem oa_tile (c : Dev nD) (t : Fin cfg0.N) (k : Fin 2048) (j : Fin 512) :
    (iblk0 V c 1 t : Vec Ideal S2048x512 .bf16) (ix2 k j) = oaV V c (ix2 k j) := by
  obtain ⟨-, -, e0, e1, -⟩ := tile_index t
  unfold iblk0
  rw [View.read_apply]
  show V c main_v6 _ = V c main_v6 _
  congr 1
  funext a
  apply Fin.ext
  match a with
  | ⟨0, _⟩ => show win0_1.index t (0 : Fin 2) * 2048 + 1 * k.val = k.val; rw [e0]; omega
  | ⟨1, _⟩ => show win0_1.index t (1 : Fin 2) * 512 + 1 * j.val = j.val; rw [e1]; omega

/-- The body's floored root at row `p` of the tile at point `t` is the floored root of the tile's row in the input. -/
theorem pay2_tile (c : Dev nD) (t : Fin cfg0.N) (p : Fin 400) (j : Fin 512) :
    k0_pay2 (iblk0 V c 0 t : Vec Ideal S400x2048 .f32) (iblk0 V c 1 t : Vec Ideal S2048x512 .bf16) (ix2 p j) = x0V V c (Forms.blk (tileOf t) p) j := by
  refine (pay2_apply (iblk0 V c 0 t) (iblk0 V c 1 t) p j).trans ?_
  unfold x0V
  congr 2
  refine Finset.sum_congr rfl fun k _ => ?_
  rw [ten_tile V c t p k, oa_tile V c t k j]

/-- What output window 5's array ends holding: the floored roots, row by row. -/
def rootsArr (c : Dev nD) : S50000x512.Idx → EReal := fun i => x0V V c (i 0) (i 1)

/-- Point `t` writes back rows `400 t … 400 t + 399` of the floored roots. -/
theorem flushed5_eq (c : Dev nD) (t : Fin cfg0.N) :
    (dat0 V c).flushed 5 t = ((cfg0.win 5).blk t).view.read (Elt Ideal) (rootsArr V c) := by
  show (cfg0.win 5).cut (grid0.coords t) ((dat0 V c).after 5 t) = _
  rw [after0_5]
  unfold out0_5
  rw [View.canon_unit_zero zero_off2]
  simp only [View.ld_unit_zero (S := S400x2048) zero_off2, View.ld_unit_zero (S := S2048x512) zero_off2]
  obtain ⟨-, -, -, -, e0, e1, -⟩ := tile_index t
  funext y
  obtain ⟨p, q, rfl⟩ : ∃ (p : Fin 400) (q : Fin 512), y = ix2 p q := ⟨y 0, y 1, eq_ix2 y⟩
  show k0_pay2 (iblk0 V c 0 t : Vec Ideal S400x2048 .f32) (iblk0 V c 1 t : Vec Ideal S2048x512 .bf16) (ix2 p q)
    = rootsArr V c (((cfg0.win 5).blk t).view.emb (ix2 p q))
  refine (pay2_tile V c t p q).trans ?_
  unfold rootsArr
  refine congrArg₂ (x0V V c) (Fin.ext ?_) (Fin.ext ?_)
  · show 400 * t.val + p.val = win0_5.index t (0 : Fin 2) * 400 + 1 * p.val
    rw [e0]; omega
  · show q.val = win0_5.index t (1 : Fin 2) * 512 + 1 * q.val
    rw [e1]; omega

/-- An index of the array is in point `t`'s block iff each coordinate is in the block's range on its axis. -/
theorem mem_tile5 (t : Fin cfg0.N) (i : S50000x512.Idx) :
    i ∈ ((cfg0.win 5).blk t).view.set ↔ ∀ a : Fin 2, win0_5.index t a * S400x512.size a ≤ (i a).val ∧ (i a).val < win0_5.index t a * S400x512.size a + S400x512.size a := by
  show i ∈ ((View.whole main_v14_1).slice (win0_5.rect t)).set ↔ _
  rw [View.set_slice_whole, Rect.mem_set_unit]
  exact Iff.rfl

/-- Row `n` lies in the block of point `n / 400`. -/
theorem cover5 (i : S50000x512.Idx) : ∃ t : Fin cfg0.N, (cfg0.win 5).flush t = true ∧ i ∈ ((cfg0.win 5).blk t).view.set := by
  have hi0 : (i 0).val < 50000 := (i 0).isLt
  have hi1 : (i 1).val < 512 := (i 1).isLt
  have hN : cfg0.N = 125 := N_0
  obtain ⟨t, ht⟩ : ∃ t : Fin cfg0.N, t.val = (i 0).val / 400 := ⟨⟨(i 0).val / 400, by omega⟩, rfl⟩
  obtain ⟨-, -, -, -, e0, e1, -⟩ := tile_index t
  refine ⟨t, flush0_5 t, ?_⟩
  rw [mem_tile5]
  intro a
  match a with
  | ⟨0, _⟩ =>
    show win0_5.index t (0 : Fin 2) * 400 ≤ (i 0).val ∧ (i 0).val < win0_5.index t (0 : Fin 2) * 400 + 400
    rw [e0]; omega
  | ⟨1, _⟩ =>
    show win0_5.index t (1 : Fin 2) * 512 ≤ (i 1).val ∧ (i 1).val < win0_5.index t (1 : Fin 2) * 512 + 512
    rw [e1]; omega

/-- The array of floored roots after the last point. -/
theorem roots_final (c : Dev nD) : (dat0 V c).arrAt 5 cfg0.N = rootsArr V c :=
  (dat0 V c).arrAt_eq_of_cover 5 (rootsArr V c) (fun t _ => flushed5_eq V c t) cover5

/-! ## The two statistics: a tile's column sums, replicated over 8 rows -/

/-- The sum over a tile's 400 rows, read at column `j`. The accumulator's word and the format's admissibility are the
    printed term's own. -/
theorem colsum_apply (x : FVec Ideal S400x512 .f32) (hφ : FKind.Formats .f32)
    (hacc : (0x00000000#32 : BitVec 32) = FKind.add.neutral .f32 hφ) (j : Fin 512) :
    multiReduction (F := Ideal) .add [0] S512 x 0x00000000#32 reduces_S400x512_S512 hφ hacc (ix1 j) = ∑ i : Fin 400, x (ix2 i j) := by
  refine (Ideal.multiReduction_add_single x 0x00000000#32 reduces_S400x512_S512 hφ hacc (ix1 j)).trans ?_
  show ∑ i : Fin 400, x (reduces_S400x512_S512.lift (ix1 j) i) = ∑ i : Fin 400, x (ix2 i j)
  refine Finset.sum_congr rfl fun i _ => congrArg x ?_
  funext a
  apply Fin.ext
  match a with
  | ⟨0, _⟩ => rfl
  | ⟨1, _⟩ => rfl

/-- A column-sum vector cast to [1, 512], then to [1, 1, 512], and replicated to [1, 8, 512], read at `(u, r, j)`. -/
theorem replicate_apply (s : FVec Ideal S512 .f32) (u : Fin 1) (r : Fin 8) (j : Fin 512) :
    broadcastTo S1x8x512 (shapeCast S1x1x512 (shapeCast S1x1x512 (shapeCast S1x512 s shapeCasts_S512_S1x512) shapeCasts_S1x512_S1x1x512) shapeCasts_S1x1x512_S1x1x512) broadcasts_S1x1x512_S1x8x512 (ix3 u r j)
      = s (ix1 j) := by
  rw [shapeCast_self]
  refine (broadcastTo_apply _ _ (ix3 u r j) (ix3 (0 : Fin 1) (0 : Fin 1) j) fun a => ?_).trans ?_
  · match a with
    | ⟨0, _⟩ => rfl
    | ⟨1, _⟩ => rfl
    | ⟨2, _⟩ => rfl
  refine (shapeCast_ab_1ab_apply _ _ (0 : Fin 1) (0 : Fin 1) j).trans ?_
  exact shapeCast_a_1a_apply _ _ (0 : Fin 1) j

/-- The body's first statistic at `(u, r, j)`: the tile's floored roots summed down column `j`. -/
theorem pay3_apply (v0 : Vec Ideal S400x2048 .f32) (v3 : Vec Ideal S2048x512 .bf16) (u : Fin 1) (r : Fin 8) (j : Fin 512) :
    k0_pay3 v0 v3 (ix3 u r j) = ∑ i : Fin 400, k0_pay2 v0 v3 (ix2 i j) := by
  unfold k0_pay3
  refine (replicate_apply _ u r j).trans ?_
  exact colsum_apply _ _ _ j

/-- The body's second statistic at `(u, r, j)`: the squares of the tile's floored roots summed down column `j`. -/
theorem pay4_apply (v0 : Vec Ideal S400x2048 .f32) (v3 : Vec Ideal S2048x512 .bf16) (u : Fin 1) (r : Fin 8) (j : Fin 512) :
    k0_pay4 v0 v3 (ix3 u r j) = ∑ i : Fin 400, k0_pay2 v0 v3 (ix2 i j) * k0_pay2 v0 v3 (ix2 i j) := by
  unfold k0_pay4
  refine (replicate_apply _ u r j).trans ?_
  exact colsum_apply _ _ _ j

/-- What output window 6's array ends holding: each tile's column sums of the floored roots, on each of its 8 rows. -/
def tileSums (c : Dev nD) : S125x8x512.Idx → EReal := fun i => ∑ p : Fin 400, x0V V c (Forms.blk (i 0) p) (i 2)

/-- Point `t` writes back tile `t` of it. -/
theorem flushed6_eq (c : Dev nD) (t : Fin cfg0.N) :
    (dat0 V c).flushed 6 t = ((cfg0.win 6).blk t).view.read (Elt Ideal) (tileSums V c) := by
  show (cfg0.win 6).cut (grid0.coords t) ((dat0 V c).after 6 t) = _
  rw [after0_6]
  unfold out0_6
  rw [View.canon_unit_zero zero_off3]
  simp only [View.ld_unit_zero (S := S400x2048) zero_off2, View.ld_unit_zero (S := S2048x512) zero_off2]
  have e := tile_index t
  funext y
  obtain ⟨u, r, q, rfl⟩ : ∃ (u : Fin 1) (r : Fin 8) (q : Fin 512), y = ix3 u r q := ⟨y 0, y 1, y 2, eq_ix3 y⟩
  show k0_pay3 (iblk0 V c 0 t : Vec Ideal S400x2048 .f32) (iblk0 V c 1 t : Vec Ideal S2048x512 .bf16) (ix3 u r q)
    = tileSums V c (((cfg0.win 6).blk t).view.emb (ix3 u r q))
  refine (pay3_apply (iblk0 V c 0 t) (iblk0 V c 1 t) u r q).trans ?_
  unfold tileSums
  refine Finset.sum_congr rfl fun i _ => ?_
  rw [pay2_tile V c t i q]
  refine congrArg₂ (fun (g : Fin 125) (j : Fin 512) => x0V V c (Forms.blk g i) j) (Fin.ext ?_) (Fin.ext ?_)
  · show t.val = win0_6.index t (0 : Fin 3) * 1 + 1 * u.val
    have hu : u.val = 0 := by omega
    omega
  · show q.val = win0_6.index t (2 : Fin 3) * 512 + 1 * q.val
    omega

/-- An index of the array is in point `t`'s block iff each coordinate is in the block's range on its axis. -/
theorem mem_tile6 (t : Fin cfg0.N) (i : S125x8x512.Idx) :
    i ∈ ((cfg0.win 6).blk t).view.set ↔ ∀ a : Fin 3, win0_6.index t a * S1x8x512.size a ≤ (i a).val ∧ (i a).val < win0_6.index t a * S1x8x512.size a + S1x8x512.size a := by
  show i ∈ ((View.whole main_v14_2).slice (win0_6.rect t)).set ↔ _
  rw [View.set_slice_whole, Rect.mem_set_unit]
  exact Iff.rfl

/-- Tile `g` is the block of point `g`. -/
theorem cover6 (i : S125x8x512.Idx) : ∃ t : Fin cfg0.N, (cfg0.win 6).flush t = true ∧ i ∈ ((cfg0.win 6).blk t).view.set := by
  have hi0 : (i 0).val < 125 := (i 0).isLt
  have hi1 : (i 1).val < 8 := (i 1).isLt
  have hi2 : (i 2).val < 512 := (i 2).isLt
  have hN : cfg0.N = 125 := N_0
  obtain ⟨t, ht⟩ : ∃ t : Fin cfg0.N, t.val = (i 0).val := ⟨⟨(i 0).val, by omega⟩, rfl⟩
  have e := tile_index t
  refine ⟨t, flush0_6 t, ?_⟩
  rw [mem_tile6]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 8 ≤ (i 1).val ∧ (i 1).val < win0_6.index t (1 : Fin 3) * 8 + 8
    omega
  | ⟨2, _⟩ =>
    show win0_6.index t (2 : Fin 3) * 512 ≤ (i 2).val ∧ (i 2).val < win0_6.index t (2 : Fin 3) * 512 + 512
    omega

/-- The array after the last point. -/
theorem tileSums_final (c : Dev nD) : (dat0 V c).arrAt 6 cfg0.N = tileSums V c :=
  (dat0 V c).arrAt_eq_of_cover 6 (tileSums V c) (fun t _ => flushed6_eq V c t) cover6

/-- What output window 7's array ends holding: each tile's column sums of the squared floored roots, on each of its 8 rows. -/
def tileSqSums (c : Dev nD) : S125x8x512.Idx → EReal := fun i => ∑ p : Fin 400, x0V V c (Forms.blk (i 0) p) (i 2) * x0V V c (Forms.blk (i 0) p) (i 2)

/-- Point `t` writes back tile `t` of it. -/
theorem flushed7_eq (c : Dev nD) (t : Fin cfg0.N) :
    (dat0 V c).flushed 7 t = ((cfg0.win 7).blk t).view.read (Elt Ideal) (tileSqSums V c) := by
  show (cfg0.win 7).cut (grid0.coords t) ((dat0 V c).after 7 t) = _
  rw [after0_7]
  unfold out0_7
  rw [View.canon_unit_zero zero_off3]
  simp only [View.ld_unit_zero (S := S400x2048) zero_off2, View.ld_unit_zero (S := S2048x512) zero_off2]
  have e := tile_index t
  funext y
  obtain ⟨u, r, q, rfl⟩ : ∃ (u : Fin 1) (r : Fin 8) (q : Fin 512), y = ix3 u r q := ⟨y 0, y 1, y 2, eq_ix3 y⟩
  show k0_pay4 (iblk0 V c 0 t : Vec Ideal S400x2048 .f32) (iblk0 V c 1 t : Vec Ideal S2048x512 .bf16) (ix3 u r q)
    = tileSqSums V c (((cfg0.win 7).blk t).view.emb (ix3 u r q))
  refine (pay4_apply (iblk0 V c 0 t) (iblk0 V c 1 t) u r q).trans ?_
  unfold tileSqSums
  refine Finset.sum_congr rfl fun i _ => ?_
  rw [pay2_tile V c t i q]
  refine congrArg₂ (fun (g : Fin 125) (j : Fin 512) => x0V V c (Forms.blk g i) j * x0V V c (Forms.blk g i) j) (Fin.ext ?_) (Fin.ext ?_)
  · show t.val = win0_7.index t (0 : Fin 3) * 1 + 1 * u.val
    have hu : u.val = 0 := by omega
    omega
  · show q.val = win0_7.index t (2 : Fin 3) * 512 + 1 * q.val
    omega

/-- An index of the array is in point `t`'s block iff each coordinate is in the block's range on its axis. -/
theorem mem_tile7 (t : Fin cfg0.N) (i : S125x8x512.Idx) :
    i ∈ ((cfg0.win 7).blk t).view.set ↔ ∀ a : Fin 3, win0_7.index t a * S1x8x512.size a ≤ (i a).val ∧ (i a).val < win0_7.index t a * S1x8x512.size a + S1x8x512.size a := by
  show i ∈ ((View.whole main_v14_3).slice (win0_7.rect t)).set ↔ _
  rw [View.set_slice_whole, Rect.mem_set_unit]
  exact Iff.rfl

/-- Tile `g` is the block of point `g`. -/
theorem cover7 (i : S125x8x512.Idx) : ∃ t : Fin cfg0.N, (cfg0.win 7).flush t = true ∧ i ∈ ((cfg0.win 7).blk t).view.set := by
  have hi0 : (i 0).val < 125 := (i 0).isLt
  have hi1 : (i 1).val < 8 := (i 1).isLt
  have hi2 : (i 2).val < 512 := (i 2).isLt
  have hN : cfg0.N = 125 := N_0
  obtain ⟨t, ht⟩ : ∃ t : Fin cfg0.N, t.val = (i 0).val := ⟨⟨(i 0).val, by omega⟩, rfl⟩
  have e := tile_index t
  refine ⟨t, flush0_7 t, ?_⟩
  rw [mem_tile7]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 8 ≤ (i 1).val ∧ (i 1).val < win0_7.index t (1 : Fin 3) * 8 + 8
    omega
  | ⟨2, _⟩ =>
    show win0_7.index t (2 : Fin 3) * 512 ≤ (i 2).val ∧ (i 2).val < win0_7.index t (2 : Fin 3) * 512 + 512
    omega

/-- The array after the last point. -/
theorem tileSqSums_final (c : Dev nD) : (dat0 V c).arrAt 7 cfg0.N = tileSqSums V c :=
  (dat0 V c).arrAt_eq_of_cover 7 (tileSqSums V c) (fun t _ => flushed7_eq V c t) cover7

theorem arr_x0 (c : Dev nD) (n : Fin 50000) (j : Fin 512) : x0Arr V c (ix2 n j) = x0V V c n j :=
  congrFun (roots_final V c) (ix2 n j)

theorem arr_psum (c : Dev nD) (g : Fin 125) (r : Fin 8) (j : Fin 512) :
    psumArr V c (ix3 g r j) = ∑ i : Fin 400, x0V V c (Forms.blk g i) j :=
  congrFun (tileSums_final V c) (ix3 g r j)

theorem arr_psumsq (c : Dev nD) (g : Fin 125) (r : Fin 8) (j : Fin 512) :
    psumsqArr V c (ix3 g r j) = ∑ i : Fin 400, x0V V c (Forms.blk g i) j * x0V V c (Forms.blk g i) j :=
  congrFun (tileSqSums_final V c) (ix3 g r j)

end Cert.KernelIdeal.KReg0

end
-- ==== Proof.KReg0X2.lean ====
/-
  The first region's quotient array after its 125 points, from any contents `V` of the buffers at the region's entry:
  point `g` writes back rows `400 g … 400 g + 399` of the input divided by the divisor routed to each column — the
  divisor's product with the 0/1 routing matrix, plus the same product of the divisor's remainder after the format
  round trip (which the idealization leaves as `x − x`).

  The steps: a [400,512] by [512,2048] product read at an entry is the sum over the 512 channels; the body's quotient at
  an entry of a tile, over any arrays the tile's rows come from; each input tile as rows of its array (the routing
  matrices and the shift are read whole at every point); what a point writes back is its tile of one quotient array; row
  `r` lies in the tile of point `r / 400`, so the tiles cover the array.
-/
import proofs.«427098_j31791347925866_3_alg».proof.Proof.Gen.KernelIdeal.Frame
import proofs.«427098_j31791347925866_3_alg».proof.Proof.Forms
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import proofs.«427098_j31791347925866_3_alg».proof.Proof.KReg0
set_option maxRecDepth 16384

noncomputable section

namespace Cert.KernelIdeal.KReg0X2

open Cert.KernelIdeal Cert.KernelIdeal.Gen
open Idealize.ShloMosaic Idealize.ShloMosaic.TcCoe Idealize.SL.Sem Idealize.ShloMosaic.ValueIdx

open Cert.KernelIdeal.KReg0

/-! ## The product with the routing matrix, entry by entry -/

/-- A row coordinate of the left factor is the output's row. -/
theorem lhs_route_0 (i : S400x2048.Idx) (q : dot_S400x512_S512x2048_S400x2048_1_0_0_1_n_n.contr.Idx) :
    (dot_S400x512_S512x2048_S400x2048_1_0_0_1_n_n.lhsIdx i q 0).val = (i 0).val := by
  unfold DotDims.lhsIdx
  rw [dif_neg (show ¬(0 : Fin S400x512.rank) ∈ dot_S400x512_S512x2048_S400x2048_1_0_0_1_n_n.lhsBatch by decide), dif_pos (show (0 : Fin S400x512.rank) ∈ dot_S400x512_S512x2048_S400x2048_1_0_0_1_n_n.lhsNonContracting by decide)]
  rfl
/-- Its column coordinate is the summation index. -/
theorem lhs_route_1 (i : S400x2048.Idx) (q : dot_S400x512_S512x2048_S400x2048_1_0_0_1_n_n.contr.Idx) :
    (dot_S400x512_S512x2048_S400x2048_1_0_0_1_n_n.lhsIdx i q 1).val = (q ⟨0, by decide⟩).val :=
  dot_S400x512_S512x2048_S400x2048_1_0_0_1_n_n.lhsIdx_val_of_single rfl i q
/-- A row coordinate of the right factor is the summation index. -/
theorem rhs_route_0 (i : S400x2048.Idx) (q : dot_S400x512_S512x2048_S400x2048_1_0_0_1_n_n.contr.Idx) :
    (dot_S400x512_S512x2048_S400x2048_1_0_0_1_n_n.rhsIdx i q 0).val = (q ⟨0, by decide⟩).val :=
  dot_S400x512_S512x2048_S400x2048_1_0_0_1_n_n.rhsIdx_val_of_single rfl i q
/-- Its column coordinate is the output's column. -/
theorem rhs_route_1 (i : S400x2048.Idx) (q : dot_S400x512_S512x2048_S400x2048_1_0_0_1_n_n.contr.Idx) :
    (dot_S400x512_S512x2048_S400x2048_1_0_0_1_n_n.rhsIdx i q 1).val = (i 1).val := by
  unfold DotDims.rhsIdx
  rw [dif_neg (show ¬(1 : Fin S512x2048.rank) ∈ dot_S400x512_S512x2048_S400x2048_1_0_0_1_n_n.rhsBatch by decide), dif_pos (show (1 : Fin S512x2048.rank) ∈ dot_S400x512_S512x2048_S400x2048_1_0_0_1_n_n.rhsNonContracting by decide)]
  rfl

/-- A [400,512] by [512,2048] product into a zero accumulator, at row `p` and column `d`: the sum over the 512 channels. -/
theorem route_apply (l : FVec Ideal S400x512 .bf16) (r : FVec Ideal S512x2048 .bf16) (p : Fin 400) (d : Fin 2048) :
    matmul dot_S400x512_S512x2048_S400x2048_1_0_0_1_n_n none l r (constant (F := Ideal) S400x2048 .f32 0x00000000#32) (ix2 p d)
      = ∑ k : Fin 512, l (ix2 p k) * r (ix2 k d) := by
  simp only [matmul]
  rw [Ideal.matmul_constant_zero_apply, ← Equiv.sum_comp (contrEquiv1 dot_S400x512_S512x2048_S400x2048_1_0_0_1_n_n 512 rfl rfl).symm]
  refine Finset.sum_congr rfl fun k _ => ?_
  have hk := contrEquiv1_symm_val dot_S400x512_S512x2048_S400x2048_1_0_0_1_n_n 512 rfl rfl k
  have el : dot_S400x512_S512x2048_S400x2048_1_0_0_1_n_n.lhsIdx (ix2 p d) ((contrEquiv1 dot_S400x512_S512x2048_S400x2048_1_0_0_1_n_n 512 rfl rfl).symm k) = ix2 p k := funext fun a => Fin.ext (by
    match a with
    | ⟨0, _⟩ => exact lhs_route_0 _ _
    | ⟨1, _⟩ => exact (lhs_route_1 _ _).trans hk)
  have er : dot_S400x512_S512x2048_S400x2048_1_0_0_1_n_n.rhsIdx (ix2 p d) ((contrEquiv1 dot_S400x512_S512x2048_S400x2048_1_0_0_1_n_n 512 rfl rfl).symm k) = ix2 k d := funext fun a => Fin.ext (by
    match a with
    | ⟨0, _⟩ => exact (rhs_route_0 _ _).trans hk
    | ⟨1, _⟩ => exact rhs_route_1 _ _)
  rw [el, er]

/-! ## The body's quotient at an entry of a tile -/

/-- The divisor the body forms, at row `p`, channel `j` of a tile: the floored root shifted, in absolute value, plus the small constant. -/
theorem pay5_apply (v0 : Vec Ideal S400x2048 .f32) (v3 : Vec Ideal S2048x512 .bf16) (v23 : Vec Ideal S1x512 .f32) (p : Fin 400) (j : Fin 512) :
    k0_pay5 v0 v3 v23 (ix2 p j)
      = max (k0_pay2 v0 v3 (ix2 p j) + v23 (ix2 (0 : Fin 1) j)) (-(k0_pay2 v0 v3 (ix2 p j) + v23 (ix2 (0 : Fin 1) j))) + Forms.E2 := by
  have hb : broadcastTo S400x512 (shapeCast S1x512 v23 shapeCasts_S1x512_S1x512) broadcasts_S1x512_S400x512 (ix2 p j) = v23 (ix2 (0 : Fin 1) j) := by
    rw [shapeCast_self]
    exact broadcastTo_1b_ab_apply v23 _ p j
  unfold k0_pay5
  show max (k0_pay2 v0 v3 (ix2 p j) + broadcastTo S400x512 (shapeCast S1x512 v23 shapeCasts_S1x512_S1x512) broadcasts_S1x512_S400x512 (ix2 p j))
      (-(k0_pay2 v0 v3 (ix2 p j) + broadcastTo S400x512 (shapeCast S1x512 v23 shapeCasts_S1x512_S1x512) broadcasts_S1x512_S400x512 (ix2 p j))) + Forms.E2 = _
  rw [hb]

/-- The body's quotient at row `p`, column `d` of a tile: the input entry divided by the divisor's product with the
    routing matrix plus the same product of the divisor's remainder, which the idealization leaves as `x - x`. -/
theorem pay1_apply (v0 : Vec Ideal S400x2048 .f32) (v3 : Vec Ideal S2048x512 .bf16) (v23 : Vec Ideal S1x512 .f32)
    (v34 v37 : Vec Ideal S512x2048 .bf16) (p : Fin 400) (d : Fin 2048) :
    k0_pay1 v0 (k0_pay6 v0 v3 v23) (k0_pay7 v0 v3 v23) v34 v37 (ix2 p d)
      = Ideal.div (v0 (ix2 p d))
          ((∑ k : Fin 512, k0_pay5 v0 v3 v23 (ix2 p k) * v34 (ix2 k d))
            + ∑ k : Fin 512, (k0_pay5 v0 v3 v23 (ix2 p k) - k0_pay5 v0 v3 v23 (ix2 p k)) * v37 (ix2 k d)) := by
  unfold k0_pay1
  rw [shapeCast_self, shapeCast_self]
  show Ideal.div (v0 (ix2 p d))
      (matmul dot_S400x512_S512x2048_S400x2048_1_0_0_1_n_n none (k0_pay6 v0 v3 v23) v34 (constant (F := Ideal) S400x2048 .f32 0x00000000#32) (ix2 p d)
        + matmul dot_S400x512_S512x2048_S400x2048_1_0_0_1_n_n none (k0_pay7 v0 v3 v23) v37 (constant (F := Ideal) S400x2048 .f32 0x00000000#32) (ix2 p d)) = _
  rw [route_apply, route_apply]
  rfl

/-! ## The divisor and the quotient over arbitrary arrays -/

/-- The divisor at row `n`, channel `j`, over an input array `T`, a routing matrix `A` and a shift `s`. -/
def dvOf (T : S50000x2048.Idx → EReal) (A : S2048x512.Idx → EReal) (s : S1x512.Idx → EReal) (n : Fin 50000) (j : Fin 512) : EReal :=
  max (max (Ideal.sqrt (∑ k : Fin 2048, (T (ix2 n k) * T (ix2 n k)) * A (ix2 k j))) Forms.E4 + s (ix2 (0 : Fin 1) j))
      (-(max (Ideal.sqrt (∑ k : Fin 2048, (T (ix2 n k) * T (ix2 n k)) * A (ix2 k j))) Forms.E4 + s (ix2 (0 : Fin 1) j))) + Forms.E2

/-- The body's quotient at row `p`, column `d` of a tile whose row `p` is row `n` of the array `T`, both loads of the
    second routing matrix reading the same array `B`. -/
theorem tile_quot (v0 : Vec Ideal S400x2048 .f32) (v3 : Vec Ideal S2048x512 .bf16) (v23 : Vec Ideal S1x512 .f32) (v34 : Vec Ideal S512x2048 .bf16)
    (T : S50000x2048.Idx → EReal) (A : S2048x512.Idx → EReal) (B : S512x2048.Idx → EReal) (s : S1x512.Idx → EReal)
    (n : Fin 50000) (p : Fin 400) (d : Fin 2048)
    (hT : ∀ k : Fin 2048, v0 (ix2 p k) = T (ix2 n k)) (hA : v3 = A) (hB : v34 = B) (hS : v23 = s) :
    k0_pay1 v0 (k0_pay6 v0 v3 v23) (k0_pay7 v0 v3 v23) v34 v34 (ix2 p d)
      = Ideal.div (T (ix2 n d))
          ((∑ k : Fin 512, dvOf T A s n k * B (ix2 k d)) + ∑ k : Fin 512, (dvOf T A s n k - dvOf T A s n k) * B (ix2 k d)) := by
  subst hA hB hS
  have h5 : ∀ k : Fin 512, k0_pay5 v0 v3 v23 (ix2 p k) = dvOf T v3 v23 n k := fun k => by
    rw [pay5_apply, pay2_apply]
    simp only [hT]
    rfl
  rw [pay1_apply, hT d]
  simp only [h5]

/-! ## From tiles to the array -/

variable (V : (c : Dev nD) → (b : Ref sig .tc) → Buf (Elt Ideal) ((c : Thread nD τ).loc b))

/-- The divisor over the region's own arrays. -/
theorem dvOf_region (c : Dev nD) (n : Fin 50000) (j : Fin 512) : dvOf (tenV V c) (oaV V c) (b2V V c) n j = dvV V c n j := by
  unfold dvOf dvV x0V
  rfl

/-- The quotient at row `n`, column `d` of the array, over the region's inputs as it finds them. -/
def quotAt (c : Dev nD) (n : Fin 50000) (d : Fin 2048) : EReal :=
  Ideal.div (tenV V c (ix2 n d))
    ((∑ k : Fin 512, dvOf (tenV V c) (oaV V c) (b2V V c) n k * obV V c (ix2 k d))
      + ∑ k : Fin 512, (dvOf (tenV V c) (oaV V c) (b2V V c) n k - dvOf (tenV V c) (oaV V c) (b2V V c) n k) * obV V c (ix2 k d))

/-- The whole quotient array. -/
def quot (c : Dev nD) : S50000x2048.Idx → EReal := fun i => quotAt V c (i 0) (i 1)

theorem zero_offsets : (![0, 0] : Fin 2 → Nat) = fun _ => 0 := funext fun a => by fin_cases a <;> rfl

/-- The grid point as a tile number. -/
def pointTile (t : Fin cfg0.N) : Fin 125 := ⟨t.val, by have h := t.isLt; have hN : cfg0.N = 125 := N_0; omega⟩

/-- The index maps, decided over the grid: the input and the quotient move by one tile of rows per point, the routing
    matrices and the shift stay at their only block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the input tile at point `t` is row `400 t + p` of the input array. -/
theorem inTile_apply (c : Dev nD) (t : Fin cfg0.N) (p : Fin 400) (k : Fin 2048) :
    (iblk0 V c 0 t : Vec Ideal S400x2048 .f32) (ix2 p k) = tenV V c (ix2 (Forms.blk (pointTile t) p) k) := by
  obtain ⟨e0, e1, -⟩ := index_facts t
  show V c main_arg0 (((cfg0.win 0).blk t).view.emb (ix2 p k)) = V c main_arg0 (ix2 (Forms.blk (pointTile t) p) k)
  refine congrArg (V c main_arg0) (funext fun a => Fin.ext ?_)
  match a with
  | ⟨0, _⟩ => show win0_0.index t (0 : Fin 2) * 400 + 1 * p.val = 400 * t.val + p.val; omega
  | ⟨1, _⟩ => show win0_0.index t (1 : Fin 2) * 2048 + 1 * k.val = k.val; omega

/-- The first routing matrix's tile is the whole matrix at every point. -/
theorem routeA_tile (c : Dev nD) (t : Fin cfg0.N) : (iblk0 V c 1 t : Vec Ideal S2048x512 .bf16) = oaV V c := by
  obtain ⟨-, -, e0, e1, -⟩ := index_facts t
  funext j
  show V c main_v6 (((cfg0.win 1).blk t).view.emb j) = V c main_v6 j
  refine congrArg (V c main_v6) (funext fun a => Fin.ext ?_)
  match a with
  | ⟨0, _⟩ => show win0_1.index t (0 : Fin 2) * 2048 + 1 * (j 0).val = (j 0).val; omega
  | ⟨1, _⟩ => show win0_1.index t (1 : Fin 2) * 512 + 1 * (j 1).val = (j 1).val; omega

/-- So is the second routing matrix's. -/
theorem routeB_tile (c : Dev nD) (t : Fin cfg0.N) : (iblk0 V c 2 t : Vec Ideal S512x2048 .bf16) = obV V c := by
  obtain ⟨-, -, -, -, e0, e1, -⟩ := index_facts t
  funext j
  show V c main_v12 (((cfg0.win 2).blk t).view.emb j) = V c main_v12 j
  refine congrArg (V c main_v12) (funext fun a => Fin.ext ?_)
  match a with
  | ⟨0, _⟩ => show win0_2.index t (0 : Fin 2) * 512 + 1 * (j 0).val = (j 0).val; omega
  | ⟨1, _⟩ => show win0_2.index t (1 : Fin 2) * 2048 + 1 * (j 1).val = (j 1).val; omega

/-- And the shift's. -/
theorem shift_tile (c : Dev nD) (t : Fin cfg0.N) : (iblk0 V c 3 t : Vec Ideal S1x512 .f32) = b2V V c := by
  obtain ⟨-, -, -, -, -, -, e0, e1, -⟩ := index_facts t
  funext j
  show V c main_v13 (((cfg0.win 3).blk t).view.emb j) = V c main_v13 j
  refine congrArg (V c main_v13) (funext fun a => Fin.ext ?_)
  match a with
  | ⟨0, _⟩ => show win0_3.index t (0 : Fin 2) * 1 + 1 * (j 0).val = (j 0).val; omega
  | ⟨1, _⟩ => show win0_3.index t (1 : Fin 2) * 512 + 1 * (j 1).val = (j 1).val; omega

/-- What point `t` writes back is tile `t` of the quotient array. -/
theorem x2_flushed (c : Dev nD) (t : Fin cfg0.N) :
    (dat0 V c).flushed 4 t = ((cfg0.win 4).blk t).view.read (Elt Ideal) (quot V c) := by
  show (cfg0.win 4).cut (grid0.coords t) ((dat0 V c).after 4 t) = _
  rw [after0_4]
  unfold out0_4
  rw [View.canon_unit_zero zero_offsets]
  simp only [View.ld_unit_zero (S := S400x2048) zero_offsets, View.ld_unit_zero (S := S2048x512) zero_offsets, View.ld_unit_zero (S := S512x2048) zero_offsets, View.ld_unit_zero (S := S1x512) zero_offsets]
  funext j
  obtain ⟨p, d, rfl⟩ : ∃ (p : Fin 400) (d : Fin 2048), j = ix2 p d := ⟨j 0, j 1, eq_ix2 j⟩
  obtain ⟨-, -, -, -, -, -, -, -, e0, e1⟩ := index_facts t
  have hi : ((cfg0.win 4).blk t).view.emb (ix2 p d) = (ix2 (Forms.blk (pointTile t) p) d : S50000x2048.Idx) := funext fun a => Fin.ext (by
    match a with
    | ⟨0, _⟩ => show win0_4.index t (0 : Fin 2) * 400 + 1 * p.val = 400 * t.val + p.val; omega
    | ⟨1, _⟩ => show win0_4.index t (1 : Fin 2) * 2048 + 1 * d.val = d.val; omega)
  show k0_pay1 (F := Ideal) _ _ _ _ _ (ix2 p d) = quot V c (((cfg0.win 4).blk t).view.emb (ix2 p d))
  rw [hi]
  exact tile_quot (iblk0 V c 0 t) (iblk0 V c 1 t) (iblk0 V c 3 t) (iblk0 V c 2 t) (tenV V c) (oaV V c) (obV V c) (b2V V c)
    (Forms.blk (pointTile t) p) p d (inTile_apply V c t p) (routeA_tile V c t) (routeB_tile V c t) (shift_tile V c t)

/-- An index of the array is in point `t`'s tile iff each coordinate is in the tile's range on its axis. -/
theorem mem_x2_tile (t : Fin cfg0.N) (i : S50000x2048.Idx) :
    i ∈ ((cfg0.win 4).blk t).view.set ↔ ∀ a : Fin 2, win0_4.index t a * S400x2048.size a ≤ (i a).val ∧ (i a).val < win0_4.index t a * S400x2048.size a + S400x2048.size a := by
  show i ∈ ((View.whole main_v14_0).slice (win0_4.rect t)).set ↔ _
  rw [View.set_slice_whole, Rect.mem_set_unit]
  exact Iff.rfl

/-- Row `r` lies in the tile of point `r / 400`: the tiles cover the array. -/
theorem x2_tiles_cover (i : S50000x2048.Idx) : ∃ t : Fin cfg0.N, (cfg0.win 4).flush t = true ∧ i ∈ ((cfg0.win 4).blk t).view.set := by
  have hi0 : (i 0).val < 50000 := (i 0).isLt
  have hi1 : (i 1).val < 2048 := (i 1).isLt
  have hN : cfg0.N = 125 := N_0
  obtain ⟨t, ht⟩ : ∃ t : Fin cfg0.N, t.val = (i 0).val / 400 := ⟨⟨(i 0).val / 400, by omega⟩, rfl⟩
  obtain ⟨-, -, -, -, -, -, -, -, e0, e1⟩ := index_facts t
  refine ⟨t, flush0_4 t, ?_⟩
  rw [mem_x2_tile]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 2048 ≤ (i 1).val ∧ (i 1).val < win0_4.index t (1 : Fin 2) * 2048 + 2048; omega

/-- The array after the last point is the quotient array. -/
theorem x2_final (c : Dev nD) : (dat0 V c).arrAt 4 cfg0.N = quot V c :=
  (dat0 V c).arrAt_eq_of_cover 4 (quot V c) (fun t _ => x2_flushed V c t) x2_tiles_cover

theorem arr_x2 (c : Dev nD) (n : Fin 50000) (d : Fin 2048) :
    x2Arr V c (ix2 n d) = Ideal.div (tenV V c (ix2 n d))
        ((∑ k : Fin 512, dvV V c n k * obV V c (ix2 k d))
          + ∑ k : Fin 512, (dvV V c n k - dvV V c n k) * obV V c (ix2 k d)) := by
  have h : x2Arr V c (ix2 n d) = quot V c (ix2 n d) := congrFun (x2_final V c) (ix2 n d)
  rw [h]
  show quotAt V c n d = _
  unfold quotAt
  simp only [dvOf_region]

end Cert.KernelIdeal.KReg0X2

end
-- ==== Proof.KReg1.lean ====
/-
  The second region's output array after its 50 points, from any contents `V` of the buffers at the region's entry:
  point `g` reads rows `1000 g … 1000 g + 999` of the floored roots and the whole mean and variance rows, and writes
  back the same rows of `(x − mean) · rsqrt (var + eps)`.
-/
import proofs.«427098_j31791347925866_3_alg».proof.Proof.Gen.KernelIdeal.Frame
import proofs.«427098_j31791347925866_3_alg».proof.Proof.Forms
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.KReg1

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

/-- The region's input arrays as it finds them, and its output array after its last point, each at its literal type. -/
abbrev xV (c : Dev nD) : S50000x512.Idx → EReal := V c main_v14_1
abbrev meanV (c : Dev nD) : S1x512.Idx → EReal := V c main_v23
abbrev varV (c : Dev nD) : S1x512.Idx → EReal := V c main_v28
abbrev x1Arr (c : Dev nD) : S50000x512.Idx → EReal := (dat1 V c).arrAt 3 cfg1.N

/-! ## The body's arithmetic at an index -/

/-- A row vector broadcast down the 1000 rows of a tile reads the row at the same column. -/
theorem bcast_row_apply (x : S1x512.Idx → EReal) (p : Fin 1000) (q : Fin 512) :
    broadcastTo S1000x512 x broadcasts_S1x512_S1000x512 (ix2 p q) = x (ix2 (0 : Fin 1) q) :=
  broadcastTo_apply x _ (ix2 p q) (ix2 (0 : Fin 1) q) (fun a => by
    match a with
    | ⟨0, _⟩ => rfl
    | ⟨1, _⟩ => rfl)

/-- The body's result at row `p`, column `q` of a tile: the tile's entry less the second operand's entry in that column, times the
    reciprocal root of the third operand's entry in that column plus the small constant. The casts are between equal shapes. -/
theorem pay_apply (x0 : Vec Ideal S1000x512 .f32) (x1 x2 : Vec Ideal S1x512 .f32) (p : Fin 1000) (q : Fin 512) :
    k1_pay1 x0 x1 x2 (ix2 p q)
      = (x0 (ix2 p q) - x1 (ix2 (0 : Fin 1) q)) * Ideal.rsqrt (x2 (ix2 (0 : Fin 1) q) + Forms.E5) := by
  unfold k1_pay1
  rw [mulf_apply, subf_apply, shapeCast_self, shapeCast_self, shapeCast_self, bcast_row_apply, bcast_row_apply]
  rfl

/-! ## From tiles to the array -/

theorem offsets_zero : (![0, 0] : Fin 2 → Nat) = fun _ => 0 := funext fun a => by fin_cases a <;> rfl

/-- The normalised array as ONE function of the three arrays the region reads, index by index. -/
abbrev normArr (x : S50000x512.Idx → EReal) (mean var : S1x512.Idx → EReal) : S50000x512.Idx → EReal :=
  fun i => (x i - mean (ix2 (0 : Fin 1) (⟨(i 1).val, idx2_lt1 i⟩ : Fin 512)))
    * Ideal.rsqrt (var (ix2 (0 : Fin 1) (⟨(i 1).val, idx2_lt1 i⟩ : Fin 512)) + Forms.E5)

/-- The block indices over the 50 points: the tile of rows moves with the point, in and out; the two one-row
    arrays stay at block (0, 0). -/
theorem tile_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s tile is row `1000 t + p` of the array. -/
def tileRow (t : Fin cfg1.N) (p : Fin 1000) : Fin 50000 :=
  ⟨1000 * t.val + p.val, by have := t.isLt; have := p.isLt; have : cfg1.N = 50 := N_1; omega⟩

/-- Where the output tile of point `t` sits in the array. -/
theorem out_emb (t : Fin cfg1.N) (p : Fin 1000) (q : Fin 512) :
    ((cfg1.win 3).blk t).view.emb (ix2 p q) = ix2 (tileRow t p) q := by
  obtain ⟨e0, e1, e2, e3, e4, e5, e6, e7⟩ := tile_index t
  funext a; apply Fin.ext
  match a with
  | ⟨0, _⟩ => show win1_3.index t (0 : Fin 2) * 1000 + 1 * p.val = 1000 * t.val + p.val; omega
  | ⟨1, _⟩ => show win1_3.index t (1 : Fin 2) * 512 + 1 * q.val = q.val; omega

/-- The tile of the first input array that point `t` loads is rows `1000 t … 1000 t + 999` of that array. -/
theorem x_tile (c : Dev nD) (t : Fin cfg1.N) (p : Fin 1000) (q : Fin 512) :
    iblk1 V c 0 t (ix2 p q) = xV V c (ix2 (tileRow t p) q) := by
  obtain ⟨e0, e1, e2, e3, e4, e5, e6, e7⟩ := tile_index t
  show V c main_v14_1 (((cfg1.win 0).blk t).view.emb (ix2 p q)) = V c main_v14_1 (ix2 (tileRow t p) q)
  refine congrArg (V c main_v14_1) ?_
  funext a; apply Fin.ext
  match a with
  | ⟨0, _⟩ => show win1_0.index t (0 : Fin 2) * 1000 + 1 * p.val = 1000 * t.val + p.val; omega
  | ⟨1, _⟩ => show win1_0.index t (1 : Fin 2) * 512 + 1 * q.val = q.val; omega

/-- The row of the second input array every point loads is that whole one-row array. -/
theorem mean_tile (c : Dev nD) (t : Fin cfg1.N) (q : Fin 512) :
    iblk1 V c 1 t (ix2 (0 : Fin 1) q) = meanV V c (ix2 (0 : Fin 1) q) := by
  obtain ⟨e0, e1, e2, e3, e4, e5, e6, e7⟩ := tile_index t
  show V c main_v23 (((cfg1.win 1).blk t).view.emb (ix2 (0 : Fin 1) q)) = V c main_v23 (ix2 (0 : Fin 1) q)
  refine congrArg (V c main_v23) ?_
  funext a; apply Fin.ext
  match a with
  | ⟨0, _⟩ => show win1_1.index t (0 : Fin 2) * 1 + 1 * 0 = 0; omega
  | ⟨1, _⟩ => show win1_1.index t (1 : Fin 2) * 512 + 1 * q.val = q.val; omega

/-- The row of the third input array every point loads is that whole one-row array. -/
theorem var_tile (c : Dev nD) (t : Fin cfg1.N) (q : Fin 512) :
    iblk1 V c 2 t (ix2 (0 : Fin 1) q) = varV V c (ix2 (0 : Fin 1) q) := by
  obtain ⟨e0, e1, e2, e3, e4, e5, e6, e7⟩ := tile_index t
  show V c main_v28 (((cfg1.win 2).blk t).view.emb (ix2 (0 : Fin 1) q)) = V c main_v28 (ix2 (0 : Fin 1) q)
  refine congrArg (V c main_v28) ?_
  funext a; apply Fin.ext
  match a with
  | ⟨0, _⟩ => show win1_2.index t (0 : Fin 2) * 1 + 1 * 0 = 0; omega
  | ⟨1, _⟩ => show win1_2.index t (1 : Fin 2) * 512 + 1 * q.val = q.val; omega

/-- What point `t` writes back is tile `t` of the normalised array. -/
theorem flushed_eq (c : Dev nD) (t : Fin cfg1.N) :
    (dat1 V c).flushed 3 t
      = ((cfg1.win 3).blk t).view.read (Elt Ideal) (normArr (xV V c) (meanV V c) (varV V c)) := by
  show (cfg1.win 3).cut (grid1.coords t) ((dat1 V c).after 3 t) = _
  rw [after1_3]
  unfold out1_3
  rw [View.canon_unit_zero offsets_zero]
  simp only [View.ld_unit_zero (S := S1000x512) offsets_zero, View.ld_unit_zero (S := S1x512) offsets_zero]
  refine funext fun (j : S1000x512.Idx) => ?_
  obtain ⟨p, q, rfl⟩ : ∃ (p : Fin 1000) (q : Fin 512), j = ix2 p q := ⟨j 0, j 1, eq_ix2 j⟩
  show k1_pay1 (iblk1 V c 0 t) (iblk1 V c 1 t) (iblk1 V c 2 t) (ix2 p q)
    = normArr (xV V c) (meanV V c) (varV V c) (((cfg1.win 3).blk t).view.emb (ix2 p q))
  refine (pay_apply (iblk1 V c 0 t) (iblk1 V c 1 t) (iblk1 V c 2 t) p q).trans ?_
  rw [out_emb t p q, x_tile V c t p q, mean_tile V c t q, var_tile V c t q]

/-- An index of the array is in point `t`'s tile iff each coordinate is in the tile's range on its axis. -/
theorem mem_tile (t : Fin cfg1.N) (i : S50000x512.Idx) :
    i ∈ ((cfg1.win 3).blk t).view.set ↔ ∀ a : Fin 2, win1_3.index t a * S1000x512.size a ≤ (i a).val ∧ (i a).val < win1_3.index t a * S1000x512.size a + S1000x512.size a := by
  show i ∈ ((View.whole main_v29).slice (win1_3.rect t)).set ↔ _
  rw [View.set_slice_whole, Rect.mem_set_unit]
  exact Iff.rfl

/-- Row `n` lies in the tile of point `n / 1000`: the 50 tiles cover the array. -/
theorem tiles_cover (i : S50000x512.Idx) :
    ∃ t : Fin cfg1.N, (cfg1.win 3).flush t = true ∧ i ∈ ((cfg1.win 3).blk t).view.set := by
  have hi0 : (i 0).val < 50000 := idx2_lt0 i
  have hi1 : (i 1).val < 512 := idx2_lt1 i
  have hN : cfg1.N = 50 := N_1
  let t : Fin cfg1.N := ⟨(i 0).val / 1000, by omega⟩
  obtain ⟨e0, e1, e2, e3, e4, e5, e6, e7⟩ := tile_index t
  have ht : t.val = (i 0).val / 1000 := rfl
  refine ⟨t, flush1_3 t, ?_⟩
  rw [mem_tile]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 512 ≤ (i 1).val ∧ (i 1).val < win1_3.index t (1 : Fin 2) * 512 + 512; omega

/-- The output array after the region's last point is the normalised array. -/
theorem final_x1 (c : Dev nD) : x1Arr V c = normArr (xV V c) (meanV V c) (varV V c) :=
  (dat1 V c).arrAt_eq_of_cover 3 (normArr (xV V c) (meanV V c) (varV V c)) (fun t _ => flushed_eq V c t) tiles_cover

theorem arr_x1 (c : Dev nD) (n : Fin 50000) (j : Fin 512) :
    x1Arr V c (ix2 n j)
      = (xV V c (ix2 n j) - meanV V c (ix2 (0 : Fin 1) j)) * Ideal.rsqrt (varV V c (ix2 (0 : Fin 1) j) + Forms.E5) := by
  rw [final_x1]

end Cert.KernelIdeal.KReg1

end
-- ==== Proof.KValue.lean ====
/-
  The kernel program's two results as functions of its arguments, index by index. The contents of the buffers are
  followed through the program's four segments: the first host stretch builds the routing matrices from the index
  words, so the first region's floored roots are `Forms.x0` of the arguments (a product with a 0/1 entry keeps or
  drops the square), its tile statistics the tile sums of those, its quotient `Forms.x2K`; the second host stretch
  turns the tile statistics into `Forms.meanK` and `Forms.varK`; the second region normalises the floored roots by
  them. The quotient's array is touched by nothing after the first region.
-/
import proofs.«427098_j31791347925866_3_alg».proof.Proof.Gen.KernelIdeal.Frame
import proofs.«427098_j31791347925866_3_alg».proof.Proof.Forms
import Idealize.ShloMosaic.PureOps.Ideal.Laws
import Idealize.ShloMosaic.Lib.ValueIdx
import Idealize.ShloMosaic.Lib.Pipeline.Value
import Idealize.ShloMosaic.Lib.StableHlo.Run
import proofs.«427098_j31791347925866_3_alg».proof.Proof.KHost
import proofs.«427098_j31791347925866_3_alg».proof.Proof.KReg0
import proofs.«427098_j31791347925866_3_alg».proof.Proof.KReg0X2
import proofs.«427098_j31791347925866_3_alg».proof.Proof.KReg1
set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx

open Cert.KernelIdeal.KHost Cert.KernelIdeal.KReg0 Cert.KernelIdeal.KReg0X2 Cert.KernelIdeal.KReg1

variable (m : (ℓ : Loc nD τ sig) → Buf (Elt Ideal) ℓ) (ρ : Dev nD → PrngReg)

/-- The argument arrays at launch, each at its literal type, and by coordinates. -/
abbrev a0 (c : Dev nD) : S50000x2048.Idx → EReal := m ((c.tc : Thread nD τ).loc main_arg0)
abbrev a1 (c : Dev nD) : S2048.Idx → BitVec 32 := m ((c.tc : Thread nD τ).loc main_arg1)
abbrev a2 (c : Dev nD) : S512.Idx → EReal := m ((c.tc : Thread nD τ).loc main_arg2)
def tOf (c : Dev nD) : Fin 50000 → Fin 2048 → EReal := fun n d => a0 m c (ix2 n d)
def chOf (c : Dev nD) : Fin 2048 → ℕ := fun d => (a1 m c (ix1 d)).toNat
def bOf (c : Dev nD) : Fin 512 → EReal := fun j => a2 m c (ix1 j)

/-- The two result buffers at the last segment boundary, each at its literal type. -/
abbrev res1 (c : Dev nD) : S50000x512.Idx → EReal := W4 m ρ c (Proc.devRef .tc main_v29)
abbrev res2 (c : Dev nD) : S50000x2048.Idx → EReal := W4 m ρ c (Proc.devRef .tc main_v14_0)

/-! ## The first region's entry contents -/

theorem ten_eq (c : Dev nD) : tenV (V1 m ρ) c = a0 m c := h0_arg0 (W0 m ρ c)

theorem oa_eq (c : Dev nD) (k : Fin 2048) (j : Fin 512) :
    oaV (V1 m ρ) c (ix2 k j) = if chOf m c k = j.val then 1 else 0 := h0_oa (W0 m ρ c) k j

theorem ob_eq (c : Dev nD) (j : Fin 512) (d : Fin 2048) :
    obV (V1 m ρ) c (ix2 j d) = Forms.oh (chOf m c) j d := h0_ob (W0 m ρ c) j d

theorem b2_eq (c : Dev nD) (j : Fin 512) : b2V (V1 m ρ) c (ix2 (0 : Fin 1) j) = bOf m c j := h0_b2 (W0 m ρ c) j

/-- The floored roots over the first region's entry contents are `Forms.x0` of the arguments. -/
theorem x0V_eq (c : Dev nD) (n : Fin 50000) (j : Fin 512) :
    x0V (V1 m ρ) c n j = Forms.x0 (tOf m c) (chOf m c) n j := by
  unfold x0V Forms.x0 Forms.sumsq
  rw [ten_eq]
  refine congrArg (fun s => max (Ideal.sqrt s) Forms.E4) (Finset.sum_congr rfl fun k _ => ?_)
  rw [oa_eq]
  show (tOf m c n k * tOf m c n k) * (if chOf m c k = j.val then (1 : EReal) else 0) = _
  split_ifs <;> simp

theorem dvV_eq (c : Dev nD) (n : Fin 50000) (j : Fin 512) :
    dvV (V1 m ρ) c n j = Forms.dv (Forms.x0 (tOf m c) (chOf m c)) (bOf m c) n j := by
  unfold dvV Forms.dv
  rw [x0V_eq, b2_eq]

/-! ## After the first region -/

theorem w2_x0 (c : Dev nD) (n : Fin 50000) (j : Fin 512) :
    x0Arr (V1 m ρ) c (ix2 n j) = Forms.x0 (tOf m c) (chOf m c) n j := by
  rw [arr_x0, x0V_eq]

theorem w2_psum (c : Dev nD) (g : Fin 125) (r : Fin 8) (j : Fin 512) :
    psumArr (V1 m ρ) c (ix3 g r j) = Forms.ps (Forms.x0 (tOf m c) (chOf m c)) g j := by
  rw [arr_psum]; unfold Forms.ps
  exact Finset.sum_congr rfl fun i _ => x0V_eq m ρ c _ j

theorem w2_psumsq (c : Dev nD) (g : Fin 125) (r : Fin 8) (j : Fin 512) :
    psumsqArr (V1 m ρ) c (ix3 g r j) = Forms.pss (Forms.x0 (tOf m c) (chOf m c)) g j := by
  rw [arr_psumsq]; unfold Forms.pss
  exact Finset.sum_congr rfl fun i _ => by rw [x0V_eq]

theorem w2_x2 (c : Dev nD) (n : Fin 50000) (d : Fin 2048) :
    x2Arr (V1 m ρ) c (ix2 n d) = Forms.x2K (tOf m c) (chOf m c) (bOf m c) n d := by
  rw [arr_x2, ten_eq]; unfold Forms.x2K
  refine congrArg (Ideal.div (a0 m c (ix2 n d))) (congrArg₂ (· + ·) ?_ ?_)
  · exact Finset.sum_congr rfl fun k _ => by rw [dvV_eq, ob_eq]
  · exact Finset.sum_congr rfl fun k _ => by rw [dvV_eq, ob_eq]

/-! ## The second host stretch, from the first region's exit contents -/

theorem psumW_eq (c : Dev nD) : psumW (W2 m ρ c) = psumArr (V1 m ρ) c := W2_arr m ρ c 6
theorem psumsqW_eq (c : Dev nD) : psumsqW (W2 m ρ c) = psumsqArr (V1 m ρ) c := W2_arr m ρ c 7

theorem mean_eq (c : Dev nD) (j : Fin 512) :
    meanV (V3 m ρ) c (ix2 (0 : Fin 1) j) = Forms.meanK (Forms.x0 (tOf m c) (chOf m c)) j := by
  show meanW (W2 m ρ c) (ix2 (0 : Fin 1) j) = _
  rw [h1_mean, psumW_eq]; unfold Forms.meanK
  exact congrArg (fun s => Ideal.div s Forms.NN) (Finset.sum_congr rfl fun g _ => w2_psum m ρ c g 0 j)

theorem var_eq (c : Dev nD) (j : Fin 512) :
    varV (V3 m ρ) c (ix2 (0 : Fin 1) j) = Forms.varK (Forms.x0 (tOf m c) (chOf m c)) j := by
  show varW (W2 m ρ c) (ix2 (0 : Fin 1) j) = _
  rw [h1_var, psumW_eq, psumsqW_eq]; unfold Forms.varK Forms.meanK
  have h1 : (∑ g : Fin 125, psumArr (V1 m ρ) c (ix3 g (0 : Fin 8) j)) = ∑ g : Fin 125, Forms.ps (Forms.x0 (tOf m c) (chOf m c)) g j :=
    Finset.sum_congr rfl fun g _ => w2_psum m ρ c g 0 j
  have h2 : (∑ g : Fin 125, psumsqArr (V1 m ρ) c (ix3 g (0 : Fin 8) j)) = ∑ g : Fin 125, Forms.pss (Forms.x0 (tOf m c) (chOf m c)) g j :=
    Finset.sum_congr rfl fun g _ => w2_psumsq m ρ c g 0 j
  rw [h1, h2]

theorem x_eq (c : Dev nD) (n : Fin 50000) (j : Fin 512) :
    xV (V3 m ρ) c (ix2 n j) = Forms.x0 (tOf m c) (chOf m c) n j := by
  have h : xV (V3 m ρ) c = x0Arr (V1 m ρ) c := (h1_x0 (W2 m ρ c)).trans (W2_arr m ρ c 5)
  rw [h, w2_x0]

/-! ## The results -/

/-- The first result: the floored roots normalised by the statistics in the kernel's arrangement. -/
theorem res1_apply (c : Dev nD) (n : Fin 50000) (j : Fin 512) :
    res1 m ρ c (ix2 n j)
      = Forms.x1 (Forms.x0 (tOf m c) (chOf m c)) (Forms.meanK (Forms.x0 (tOf m c) (chOf m c)))
          (Forms.varK (Forms.x0 (tOf m c) (chOf m c))) n j := by
  have h : res1 m ρ c = x1Arr (V3 m ρ) c := W4_arr m ρ c 3
  rw [h, arr_x1, x_eq, mean_eq, var_eq]; rfl

/-- The second result: the quotient by the routed divisor. -/
theorem res2_apply (c : Dev nD) (n : Fin 50000) (d : Fin 2048) :
    res2 m ρ c (ix2 n d) = Forms.x2K (tOf m c) (chOf m c) (bOf m c) n d := by
  have h : res2 m ρ c = x2Arr (V1 m ρ) c :=
    ((W4_of_ne m ρ c main_v14_0 (by decide)).trans (h1_x2 (W2 m ρ c))).trans (W2_arr m ρ c 4)
  rw [h, w2_x2]

end Cert.KernelIdeal.KValue

end
-- ==== Proof.RefRead.lean ====
/-
  The reference's stages read at an index, over the extended reals: the scattered sums of squares are the sums over
  the columns of a channel; a reduction over the rows is the sum over the 50000 rows; the variance's guard on its row
  count is taken (the count is 50000, positive), its divisor the same count; the gather reads the divisor at the
  column's channel when every index word is below the channel count.
-/
import proofs.«427098_j31791347925866_3_alg».proof.Proof.Gen.ReferenceIdeal
import proofs.«427098_j31791347925866_3_alg».proof.Proof.RefTerm
import proofs.«427098_j31791347925866_3_alg».proof.Proof.Forms
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefRead

open Cert.ReferenceIdeal Idealize.ShloMosaic Idealize.ShloMosaic.ValueIdx

variable (a0 : S50000x2048.Idx → EReal) (a1 : S2048.Idx → BitVec 32) (a2 : S512.Idx → EReal)

/-- The arguments by coordinates: the input, each column's channel (its index word read unsigned), the shift. -/
def tOf : Fin 50000 → Fin 2048 → EReal := fun n d => a0 (ix2 n d)
def chOf : Fin 2048 → ℕ := fun d => (a1 (ix1 d)).toNat
def bOf : Fin 512 → EReal := fun j => a2 (ix1 j)
/-- An array of rows × channels by coordinates. -/
def xOf (x : S50000x512.Idx → EReal) : Fin 50000 → Fin 512 → EReal := fun n j => x (ix2 n j)

/-! ## A scatter's landing index -/

/-- An update lands on an operand element exactly when, on every axis, its start plus its window coordinate is that
    element's coordinate. -/
theorem resultIdx?_eq_some_iff {s si u : Shape} (D : ScatterDims s si u) {w : Nat} (j : u.Idx) (idx : IVec si w) (i : s.Idx) :
    D.resultIdx? j idx = some i ↔ ∀ a, D.start j idx a + (D.window j a : Int) = ((i a).val : Int) := by
  unfold ScatterDims.resultIdx?
  split
  · rename_i h
    constructor
    · intro e a
      have e' := congrFun (Option.some.inj e) a
      have e'' : (D.start j idx a + (D.window j a : Int)).toNat = (i a).val := congrArg Fin.val e'
      have := (h a).1
      omega
    · intro hall
      refine congrArg some (funext fun a => Fin.ext ?_)
      show (D.start j idx a + (D.window j a : Int)).toNat = (i a).val
      have := hall a
      omega
  · rename_i h
    constructor
    · intro e; cases e
    · intro hall
      exfalso
      apply h
      intro a
      have := hall a
      have := (i a).isLt
      omega

/-- The scatter of the reference: column `d`'s start on the channel axis is its index word read signed … -/
theorem sc_start0 (idx : IVec S2048x1 32) (d : Fin 2048) (m : Fin 50000) :
    scatter_S512x50000_S2048x1_S2048x50000_1_0_0_1.start (ix2 d m) idx (0 : Fin 2) = (idx (ix2 d (0 : Fin 1))).toInt := by
  unfold ScatterDims.start
  rw [dif_pos (show (0 : Fin 2) ∈ scatter_S512x50000_S2048x1_S2048x50000_1_0_0_1.scatterDimsToOperandDims from List.mem_singleton.mpr rfl)]
  refine congrArg (fun k => (idx k).toInt) (funext fun b => Fin.ext ?_)
  match b with
  | ⟨0, _⟩ => rfl
  | ⟨1, _⟩ => rfl

/-- … and zero on the row axis, which the index array does not address; -/
theorem sc_start1 (idx : IVec S2048x1 32) (d : Fin 2048) (m : Fin 50000) :
    scatter_S512x50000_S2048x1_S2048x50000_1_0_0_1.start (ix2 d m) idx (1 : Fin 2) = 0 := by
  unfold ScatterDims.start
  rw [dif_neg (show ¬ (1 : Fin 2) ∈ scatter_S512x50000_S2048x1_S2048x50000_1_0_0_1.scatterDimsToOperandDims from by decide)]

/-- its window coordinate is zero on the channel axis and the update's row on the row axis. -/
theorem sc_window0 (d : Fin 2048) (m : Fin 50000) :
    scatter_S512x50000_S2048x1_S2048x50000_1_0_0_1.window (ix2 d m) (0 : Fin 2) = 0 := rfl
theorem sc_window1 (d : Fin 2048) (m : Fin 50000) :
    scatter_S512x50000_S2048x1_S2048x50000_1_0_0_1.window (ix2 d m) (1 : Fin 2) = m.val := rfl

/-- So the update at (column `d`, row `m`) lands on (channel `c`, row `n`) exactly when the column's index word, read
    signed, is `c` and the rows agree. -/
theorem sc_resultIdx_iff (idx : IVec S2048x1 32) (d : Fin 2048) (m : Fin 50000) (c : Fin 512) (n : Fin 50000) :
    scatter_S512x50000_S2048x1_S2048x50000_1_0_0_1.resultIdx? (ix2 d m) idx = some (ix2 c n)
      ↔ (idx (ix2 d (0 : Fin 1))).toInt = (c.val : Int) ∧ m = n := by
  refine (resultIdx?_eq_some_iff _ _ _ _).trans ?_
  constructor
  · intro h
    have h0 := h (0 : Fin 2)
    have h1 := h (1 : Fin 2)
    rw [sc_start0, sc_window0] at h0
    rw [sc_start1, sc_window1] at h1
    refine ⟨?_, Fin.ext ?_⟩
    · have e0 : (((ix2 c n : S512x50000.Idx) (0 : Fin 2)).val : Int) = (c.val : Int) := rfl
      rw [e0] at h0
      simpa using h0
    · have e1 : (((ix2 c n : S512x50000.Idx) (1 : Fin 2)).val : Int) = (n.val : Int) := rfl
      rw [e1] at h1
      omega
  · rintro ⟨h0, rfl⟩ a
    match a with
    | ⟨0, _⟩ =>
      show scatter_S512x50000_S2048x1_S2048x50000_1_0_0_1.start (ix2 d m) idx (0 : Fin 2)
        + (scatter_S512x50000_S2048x1_S2048x50000_1_0_0_1.window (ix2 d m) (0 : Fin 2) : Int) = (c.val : Int)
      rw [sc_start0, sc_window0, h0]; simp
    | ⟨1, _⟩ =>
      show scatter_S512x50000_S2048x1_S2048x50000_1_0_0_1.start (ix2 d m) idx (1 : Fin 2)
        + (scatter_S512x50000_S2048x1_S2048x50000_1_0_0_1.window (ix2 d m) (1 : Fin 2) : Int) = (m.val : Int)
      rw [sc_start1, sc_window1]; simp

/-- A 32-bit word read signed is a channel number `c` below 2³¹ exactly when it is `c` read unsigned. -/
theorem toInt_eq_iff_toNat_eq (w : BitVec 32) (c : Nat) (hc : c < 2 ^ 31) : w.toInt = (c : Int) ↔ w.toNat = c := by
  rw [BitVec.toInt_eq_toNat_cond]
  have := w.isLt
  split <;> omega

/-! ## The scattered sums of squares -/

/-- A sum whose terms are guarded by "the proposition holds and the index is `n`" keeps the term at `n` under the
    proposition. -/
theorem sum_ite_and_eq {N : Nat} (P : Prop) [Decidable P] (n : Fin N) (f : Fin N → EReal)
    [inst : ∀ m : Fin N, Decidable (P ∧ m = n)] :
    (∑ m : Fin N, if P ∧ m = n then f m else 0) = if P then f n else 0 := by
  by_cases hP : P
  · rw [if_pos hP]
    rw [Finset.sum_eq_single n]
    · rw [if_pos ⟨hP, rfl⟩]
    · intro m _ hm
      rw [if_neg (fun h => hm h.2)]
    · intro h; exact absurd (Finset.mem_univ n) h
  · rw [if_neg hP]
    exact Finset.sum_eq_zero fun m _ => if_neg (fun h => hP h.1)

/-- The index array as the scatter and the gather take it, a column of words, read at a row. -/
theorem idxCol_apply (v : IVec S2048 32) (d : Fin 2048) :
    broadcastInDim S2048x1 ![0] Facts₀.bcast_S2048_S2048x1_0 v (ix2 d (0 : Fin 1)) = v (ix1 d) :=
  broadcastInDim_apply _ _ v _ _ fun a => match a with | ⟨0, _⟩ => rfl

/-- A broadcast scalar read anywhere is the scalar. -/
theorem bcS_apply {α : Type} {t : Shape} (h : S_.BroadcastsInDim t ![]) (v : S_.Idx → α) (j : t.Idx) :
    broadcastInDim t ![] h v j = v ix0 :=
  broadcastInDim_apply _ _ v _ _ fun a => a.elim0

/-- The squares laid out columns × rows, read at a column and a row. -/
theorem sqT_apply (d : Fin 2048) (n : Fin 50000) :
    transpose S2048x50000 [1, 0] (mulf (F := Ideal) (φ := .f32) a0 a0) Facts₀.transposes_S50000x2048_S2048x50000_1_0 (ix2 d n)
      = tOf a0 n d * tOf a0 n d :=
  (transpose_ix2_apply _ _ d n).trans rfl

theorem sumsq_apply (n : Fin 50000) (c : Fin 512) :
    RefTerm.sumsq (F := Ideal) a0 a1 (ix2 n c) = Forms.sumsq (tOf a0) (chOf a1) n c := by
  unfold RefTerm.sumsq
  refine (transpose_ix2_apply _ _ n c).trans ?_
  show Ideal.hostScatterAdd _ _ _ _ (ix2 c n) = _
  unfold Ideal.hostScatterAdd
  rw [bcS_apply, constant_apply, Ideal.ofBits_zero_f32, zero_add, Finset.sum_filter, sum_idx2]
  unfold Forms.sumsq
  refine Finset.sum_congr rfl fun d _ => ?_
  simp only [sc_resultIdx_iff]
  rw [sum_ite_and_eq, sqT_apply, idxCol_apply a1 d]
  have hc : c.val < 2 ^ 31 := by have := c.isLt; omega
  by_cases h : chOf a1 d = c.val
  · rw [if_pos h, if_pos ((toInt_eq_iff_toNat_eq _ _ hc).2 h)]
  · rw [if_neg h, if_neg (fun h' => h ((toInt_eq_iff_toNat_eq _ _ hc).1 h'))]

/-- A host square root at an index is the ideal square root of the element. -/
theorem hostSqrt_apply {s : Shape} {φ : FTy} (a : FVec Ideal s φ) (i : s.Idx) : Host.sqrt a i = Ideal.sqrt (a i) := rfl

theorem x0_apply (n : Fin 50000) (j : Fin 512) :
    RefTerm.x0 (F := Ideal) a0 a1 (ix2 n j) = Forms.x0 (tOf a0) (chOf a1) n j := by
  unfold RefTerm.x0 Forms.x0 Forms.E4
  rw [maximumf_apply, bcS_apply, constant_apply, hostSqrt_apply, sumsq_apply]

/-! ## The batch statistics -/

/-- The row count's word denotes 50000 … -/
theorem NN_eq : Forms.NN = ((50000 : ℝ) : EReal) := by
  unfold Forms.NN
  simp [Ideal.ofBits, Ideal.ieee, -EReal.coe_mul]; norm_num

/-- … which is positive. -/
theorem NN_pos : (0 : EReal) < Forms.NN := by
  rw [NN_eq]; exact_mod_cast (by norm_num : (0 : ℝ) < 50000)

/-- A host quotient at an index is the quotient of the elements. -/
theorem hostDivf_apply {s : Shape} {φ : FTy} (a b : FVec Ideal s φ) (i : s.Idx) : Host.divf a b i = Ideal.div (a i) (b i) := rfl

/-- A row of channels laid over the rows, read at a row and a channel, is the row at the channel … -/
theorem bcRow_apply {α : Type} (w : S1x512.Idx → α) (n : Fin 50000) (j : Fin 512) :
    broadcastInDim S50000x512 ![0, 1] Facts₀.bcast_S1x512_S50000x512_0_1 w (ix2 n j) = w (ix2 (0 : Fin 1) j) :=
  broadcastInDim_apply _ _ w _ _ fun a => match a with | ⟨0, _⟩ => rfl | ⟨1, _⟩ => rfl
/-- … and a vector of channels as such a row is the vector at the channel. -/
theorem bc1_apply {α : Type} (v : S512.Idx → α) (j : Fin 512) :
    broadcastInDim S1x512 ![1] Facts₀.bcast_S512_S1x512_1 v (ix2 (0 : Fin 1) j) = v (ix1 j) :=
  broadcastInDim_apply _ _ v _ _ fun a => match a with | ⟨0, _⟩ => rfl

/-- The sum over the rows from the zero word, read at a channel, is the sum of that channel's column. -/
theorem colSum_apply (y : FVec Ideal S50000x512 .f32) (j : Fin 512) :
    Host.reduceAdd y (constant (F := Ideal) S_ .f32 0x00000000#32) Facts₀.reducesTo_S50000x512_S512_d0 Facts₀.h_S_ (ix1 j)
      = ∑ n : Fin 50000, y (ix2 n j) := by
  show Ideal.hostReduceAdd _ y (Ideal.ofBits .f32 0x00000000#32) (ix1 j) = _
  rw [Ideal.hostReduceAdd_single _ (by decide : S50000x512.Reduces [0] S512), Ideal.ofBits_zero_f32, zero_add]
  refine Finset.sum_congr rfl fun k _ => congrArg y (funext fun a => Fin.ext ?_)
  match a with
  | ⟨0, _⟩ => rfl
  | ⟨1, _⟩ => rfl

theorem mean_apply (x : S50000x512.Idx → EReal) (j : Fin 512) :
    RefTerm.mean (F := Ideal) x (ix1 j) = Forms.meanR (xOf x) j := by
  unfold RefTerm.mean Forms.meanR Forms.NN
  rw [hostDivf_apply, colSum_apply, bcS_apply, constant_apply]
  rfl

theorem dev2_apply (x : S50000x512.Idx → EReal) (n : Fin 50000) (j : Fin 512) :
    RefTerm.dev2 (F := Ideal) x (ix2 n j)
      = (xOf x n j - Forms.meanR (xOf x) j) * (xOf x n j - Forms.meanR (xOf x) j) := by
  unfold RefTerm.dev2 Forms.meanR Forms.NN
  rw [mulf_apply, subf_apply, bcRow_apply, hostDivf_apply, bc1_apply, colSum_apply, bcS_apply, constant_apply]
  rfl

/-- The variance's row count: the count's word less the conversion of the zero word. -/
theorem count_apply (i : S_.Idx) : RefTerm.count (F := Ideal) i = Forms.NN := by
  unfold RefTerm.count Forms.NN
  rw [subf_apply, constant_apply, sitofp_apply]
  show Ideal.ofBits .f32 0x47435000#32 - (((constantI S_ 32 0#32 i).toInt : ℝ) : EReal) = _
  rw [constantI_apply, BitVec.toInt_zero, Int.cast_zero, EReal.coe_zero, sub_zero]

theorem var_apply (x : S50000x512.Idx → EReal) (j : Fin 512) :
    RefTerm.var (F := Ideal) x (ix1 j) = Forms.varR (xOf x) j := by
  unfold RefTerm.var Forms.varR
  rw [select_apply, bcS_apply, cmpf_apply, count_apply, constant_apply, Ideal.ofBits_zero_f32]
  have hc : FloatOps.cmpf (F := Ideal) (φ := .f32) .ogt Forms.NN 0 = 1#1 := by
    rw [Ideal.cmpf_def]; unfold Ideal.cmp; simp [NN_pos]
  rw [hc, select_one, hostDivf_apply, colSum_apply, bcS_apply, count_apply]
  exact congrArg (fun s => Ideal.div s Forms.NN) (Finset.sum_congr rfl fun n _ => dev2_apply x n j)

theorem x1_apply (x : S50000x512.Idx → EReal) (n : Fin 50000) (j : Fin 512) :
    RefTerm.x1 (F := Ideal) x (ix2 n j) = Forms.x1 (xOf x) (Forms.meanR (xOf x)) (Forms.varR (xOf x)) n j := by
  unfold RefTerm.x1 Forms.x1 Forms.E5
  rw [mulf_apply, subf_apply, bcRow_apply, bc1_apply, mean_apply, bcRow_apply, bc1_apply]
  show (x (ix2 n j) - Forms.meanR (xOf x) j)
      * Ideal.rsqrt (addf (RefTerm.var (F := Ideal) x) (broadcastInDim S512 ![] Facts₀.bcast_S_S512 (constant (F := Ideal) S_ .f32 0x3727C5AC#32)) (ix1 j)) = _
  rw [addf_apply, var_apply, bcS_apply, constant_apply]
  rfl

/-! ## The quotient -/

/-- A host absolute value at an index is the larger of the element and its negation. -/
theorem hostAbsf_apply {s : Shape} {φ : FTy} (a : FVec Ideal s φ) (i : s.Idx) : Host.absf a i = max (a i) (-(a i)) := rfl

/-- The divisor at a row and a channel. -/
theorem dv_apply (n : Fin 50000) (c : Fin 512) :
    RefTerm.dv (F := Ideal) (RefTerm.x0 (F := Ideal) a0 a1) a2 (ix2 n c)
      = Forms.dv (Forms.x0 (tOf a0) (chOf a1)) (bOf a2) n c := by
  unfold RefTerm.dv Forms.dv Forms.E2
  rw [addf_apply, bcS_apply, constant_apply, hostAbsf_apply, addf_apply, bcRow_apply, bc1_apply, x0_apply]
  rfl

/-- A column whose index word is a channel number is not wrapped: the word is not negative. -/
theorem wrapped_apply (hin : ∀ d, chOf a1 d < 512) (d : Fin 2048) : RefTerm.wrapped a1 (ix1 d) = a1 (ix1 d) := by
  unfold RefTerm.wrapped
  rw [select_apply]
  have h : cmpi .slt a1 (broadcastInDim S2048 ![] Facts₀.bcast_S_S2048 (constantI S_ 32 0#32)) (ix1 d) = 0#1 := by
    show IntOp.cmpi .slt (a1 (ix1 d)) (broadcastInDim S2048 ![] Facts₀.bcast_S_S2048 (constantI S_ 32 0#32) (ix1 d)) = 0#1
    rw [bcS_apply, constantI_apply]
    apply eq_zero_of_ne_one
    intro h1
    have hlt : (a1 (ix1 d)).toNat < 2 ^ 31 := by have := hin d; unfold chOf at this; omega
    have := (StableHlo.Predicate.slt_iff_toNat (a := a1 (ix1 d)) (b := 0#32) hlt (by decide)).1 h1
    simp at this
  rw [h, select_zero]

/-- The gather of the reference reads, at (row `n`, column `d`), row `n` of the operand at the channel the column's
    index word names, when that word is a channel number (read signed it is not negative, and the clamp into the
    channel range leaves it). -/
theorem gather_idx (I : IVec S2048x1 32) (n : Fin 50000) (d : Fin 2048) (c : Fin 512)
    (h : (I (ix2 d (0 : Fin 1))).toNat = c.val) :
    gather_S50000x512_S2048x1_S50000x2048_0_1_n_n_1_1_500001.operandIdx (ix2 n d) I = ix2 n c := by
  funext a
  refine Fin.ext ?_
  match a with
  | ⟨0, _⟩ =>
    show gather_S50000x512_S2048x1_S50000x2048_0_1_n_n_1_1_500001.start (ix2 n d) I (0 : Fin 2)
      + gather_S50000x512_S2048x1_S50000x2048_0_1_n_n_1_1_500001.batchCoord (ix2 n d) (0 : Fin 2)
      + gather_S50000x512_S2048x1_S50000x2048_0_1_n_n_1_1_500001.offCoord (ix2 n d) (0 : Fin 2) = n.val
    have hs : gather_S50000x512_S2048x1_S50000x2048_0_1_n_n_1_1_500001.start (ix2 n d) I (0 : Fin 2) = 0 := by
      unfold GatherDims.start
      rw [dif_neg (show ¬ (0 : Fin 2) ∈ gather_S50000x512_S2048x1_S50000x2048_0_1_n_n_1_1_500001.startIndexMap from by decide)]
    have hb : gather_S50000x512_S2048x1_S50000x2048_0_1_n_n_1_1_500001.batchCoord (ix2 n d) (0 : Fin 2) = 0 :=
      GatherDims.batchCoord_eq_zero _ _ _ List.not_mem_nil
    have ho : gather_S50000x512_S2048x1_S50000x2048_0_1_n_n_1_1_500001.offCoord (ix2 n d) (0 : Fin 2) = n.val := rfl
    rw [hs, hb, ho]; omega
  | ⟨1, _⟩ =>
    show gather_S50000x512_S2048x1_S50000x2048_0_1_n_n_1_1_500001.start (ix2 n d) I (1 : Fin 2)
      + gather_S50000x512_S2048x1_S50000x2048_0_1_n_n_1_1_500001.batchCoord (ix2 n d) (1 : Fin 2)
      + gather_S50000x512_S2048x1_S50000x2048_0_1_n_n_1_1_500001.offCoord (ix2 n d) (1 : Fin 2) = c.val
    have hs : gather_S50000x512_S2048x1_S50000x2048_0_1_n_n_1_1_500001.start (ix2 n d) I (1 : Fin 2)
        = min (I (ix2 d (0 : Fin 1))).toInt.toNat 511 := by
      unfold GatherDims.start
      rw [dif_pos (show (1 : Fin 2) ∈ gather_S50000x512_S2048x1_S50000x2048_0_1_n_n_1_1_500001.startIndexMap from List.mem_singleton.mpr rfl)]
      refine congrArg₂ min (congrArg (fun k => (I k).toInt.toNat) (funext fun b => Fin.ext ?_)) rfl
      match b with
      | ⟨0, _⟩ => rfl
      | ⟨1, _⟩ => rfl
    have hb : gather_S50000x512_S2048x1_S50000x2048_0_1_n_n_1_1_500001.batchCoord (ix2 n d) (1 : Fin 2) = 0 :=
      GatherDims.batchCoord_eq_zero _ _ _ List.not_mem_nil
    have ho : gather_S50000x512_S2048x1_S50000x2048_0_1_n_n_1_1_500001.offCoord (ix2 n d) (1 : Fin 2) = 0 :=
      GatherDims.offCoord_eq_zero _ _ _ (fun hk => ((GatherDims.mem_sKept _ _).mp hk).1 (List.mem_singleton.mpr rfl))
    rw [hs, hb, ho, BitVec.toInt_eq_toNat_cond]
    have := c.isLt
    have := (I (ix2 d (0 : Fin 1))).isLt
    split <;> omega

theorem x2_apply (hin : ∀ d, chOf a1 d < 512) (n : Fin 50000) (d : Fin 2048) :
    RefTerm.x2 (F := Ideal) a0 a1 a2 (ix2 n d) = Forms.x2R (tOf a0) (chOf a1) (bOf a2) hin n d := by
  unfold RefTerm.x2 Forms.x2R
  rw [hostDivf_apply]
  unfold Host.gather
  rw [gather_idx _ n d ⟨chOf a1 d, hin d⟩ (by rw [idxCol_apply, wrapped_apply a1 hin d]; rfl), dv_apply]
  rfl

end Cert.ReferenceIdeal.RefRead

end
-- ==== Proof.Bridge.lean ====
/-
  The two arrangements are one function on finite inputs.

  * The 125 tile sums of 400 rows each add up to the sum over all 50000 rows (tile `g`, row `i` is row `400 g + i`),
    so the two means agree on any input.
  * For real values `x₁ … x_N` with mean `μ = (∑ x) / N`:  `(∑ (x − μ)²) / N = (∑ x²) / N − μ²`, because
    `∑ (x − μ)² = ∑ x² − 2 μ ∑ x + N μ²` and `∑ x = N μ`. Here `N = 50000` is both the number of rows and the value of
    the divisor literal. The floored roots are real because a sum of squares of reals is a non-negative real.
  * A product with a 0/1 routing row picks the entry of the column's channel; the remainder `x − x` of a real is
    zero, so its routed copy adds nothing.
-/
import proofs.«427098_j31791347925866_3_alg».proof.Proof.Forms

noncomputable section

namespace Cert.Bridge

open Idealize.ShloMosaic Cert.Forms

/-! ## The literals -/

/-- The divisor literal denotes the row count. -/
theorem NN_eq : NN = ((50000 : ℝ) : EReal) := by
  unfold NN; simp [Ideal.ofBits, Ideal.ieee, -EReal.coe_mul]; norm_num

/-- A word whose exponent field is not all ones denotes a real. -/
theorem real_of_word (w : BitVec 32) (h : (w.extractLsb' 23 8).toNat ≠ 2 ^ 8 - 1) : ∃ r : ℝ, Ideal.ofBits .f32 w = r := by
  show ∃ r : ℝ, Ideal.ieee 8 23 w = r
  unfold Ideal.ieee
  dsimp only
  rw [if_neg h]
  split_ifs <;> exact ⟨_, rfl⟩

theorem E4_real : ∃ r : ℝ, E4 = r := real_of_word _ (by decide)
theorem E2_real : ∃ r : ℝ, E2 = r := real_of_word _ (by decide)

/-! ## Sums -/

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing tile by tile is summing over all rows. -/
theorem sum_blk {M : Type} [AddCommMonoid M] (f : Fin 50000 → M) :
    ∑ g : Fin 125, ∑ i : Fin 400, f (blk g i) = ∑ n : Fin 50000, f n := by
  have e : ∑ n : Fin 50000, f n = ∑ p : Fin 125 × Fin 400, f (blk p.1 p.2) := by
    refine (Fintype.sum_equiv (finProdFinEquiv (m := 125) (n := 400)) (fun p => f (blk p.1 p.2)) (fun n => f n) fun p => ?_).symm
    refine congrArg f (Fin.ext ?_)
    show 400 * p.1.val + p.2.val = p.2.val + 400 * p.1.val
    omega
  rw [e, Fintype.sum_prod_type]

/-! ## Finiteness of the intermediate values -/

variable {t : Fin 50000 → Fin 2048 → EReal} {ch : Fin 2048 → ℕ} {b : Fin 512 → EReal}

theorem sumsq_real (ht : ∀ n d, ∃ r : ℝ, t n d = r) (n : Fin 50000) (c : Fin 512) :
    ∃ r : ℝ, 0 ≤ r ∧ sumsq t ch n c = r := by
  choose tr htr using ht
  refine ⟨∑ d : Fin 2048, if ch d = c.val then tr n d * tr n d else 0,
    Finset.sum_nonneg fun d _ => by split_ifs <;> [exact mul_self_nonneg _; exact le_rfl], ?_⟩
  unfold sumsq
  rw [coe_sum]
  refine Finset.sum_congr rfl fun d _ => ?_
  split_ifs
  · rw [htr, EReal.coe_mul]
  · rfl

theorem x0_real (ht : ∀ n d, ∃ r : ℝ, t n d = r) (n : Fin 50000) (c : Fin 512) : ∃ r : ℝ, x0 t ch n c = r := by
  obtain ⟨r, hr0, hr⟩ := sumsq_real (ch := ch) ht n c
  obtain ⟨e, he⟩ := E4_real
  refine ⟨max (Real.sqrt r) e, ?_⟩
  unfold x0
  rw [hr, he, Ideal.sqrt_coe, if_neg (not_lt.mpr hr0)]
  exact (EReal.coe_strictMono.monotone.map_max).symm

theorem dv_real {x : Fin 50000 → Fin 512 → EReal} (hx : ∀ n c, ∃ r : ℝ, x n c = r) (hb : ∀ j, ∃ r : ℝ, b j = r)
    (n : Fin 50000) (c : Fin 512) : ∃ r : ℝ, dv x b n c = r := by
  obtain ⟨xr, hxr⟩ := hx n c
  obtain ⟨br, hbr⟩ := hb c
  obtain ⟨e, he⟩ := E2_real
  refine ⟨max (xr + br) (-(xr + br)) + e, ?_⟩
  unfold dv
  rw [hxr, hbr, he, ← EReal.coe_add, ← EReal.coe_neg, EReal.coe_add (max (xr + br) (-(xr + br))) e,
    EReal.coe_strictMono.monotone.map_max]

/-! ## The statistics -/

theorem mean_eq (x : Fin 50000 → Fin 512 → EReal) (c : Fin 512) : meanK x c = meanR x c := by
  unfold meanK meanR ps
  rw [sum_blk fun n => x n c]

theorem var_eq (x : Fin 50000 → Fin 512 → EReal) (hx : ∀ n c, ∃ r : ℝ, x n c = r) (c : Fin 512) :
    varK x c = varR x c := by
  choose xr hxr using hx
  have hN : (50000 : ℝ) ≠ 0 := by norm_num
  have hS : (∑ n : Fin 50000, x n c) = ((∑ n : Fin 50000, xr n c : ℝ) : EReal) := by
    rw [coe_sum]; exact Finset.sum_congr rfl fun n _ => hxr n c
  have hQ : (∑ n : Fin 50000, x n c * x n c) = ((∑ n : Fin 50000, xr n c * xr n c : ℝ) : EReal) := by
    rw [coe_sum]; exact Finset.sum_congr rfl fun n _ => by rw [hxr n c, EReal.coe_mul]
  have hm : meanR x c = (((∑ n : Fin 50000, xr n c) * (1 / 50000) : ℝ) : EReal) := by
    unfold meanR; rw [hS, NN_eq, Ideal.div_coe hN, ← EReal.coe_mul]
  have hD : (∑ n : Fin 50000, (x n c - meanR x c) * (x n c - meanR x c))
      = ((∑ n : Fin 50000, (xr n c - (∑ k : Fin 50000, xr k c) * (1 / 50000)) * (xr n c - (∑ k : Fin 50000, xr k c) * (1 / 50000)) : ℝ) : EReal) := by
    rw [coe_sum, hm]
    exact Finset.sum_congr rfl fun n _ => by rw [hxr n c, ← EReal.coe_sub, ← EReal.coe_mul]
  have hpss : (∑ g : Fin 125, pss x g c) = ∑ n : Fin 50000, x n c * x n c := sum_blk fun n => x n c * x n c
  unfold varK varR
  rw [mean_eq, hpss, hQ, hD, hm, NN_eq, Ideal.div_coe hN, Ideal.div_coe hN, ← EReal.coe_mul, ← EReal.coe_mul,
    ← EReal.coe_mul, ← EReal.coe_sub]
  refine congrArg _ ?_
  have h : ∀ n : Fin 50000, (xr n c - (∑ k : Fin 50000, xr k c) * (1 / 50000)) * (xr n c - (∑ k : Fin 50000, xr k c) * (1 / 50000))
      = xr n c * xr n c - 2 * ((∑ k : Fin 50000, xr k c) * (1 / 50000)) * xr n c
        + ((∑ k : Fin 50000, xr k c) * (1 / 50000)) * ((∑ k : Fin 50000, xr k c) * (1 / 50000)) := fun n => by ring
  simp only [h, Finset.sum_add_distrib, Finset.sum_sub_distrib, ← Finset.mul_sum, Finset.sum_const, Finset.card_univ,
    Fintype.card_fin, nsmul_eq_mul]
  push_cast
  ring

/-- The normalised value is the same from either arrangement of the statistics. -/
theorem x1_eq (x : Fin 50000 → Fin 512 → EReal) (hx : ∀ n c, ∃ r : ℝ, x n c = r) (n : Fin 50000) (c : Fin 512) :
    x1 x (meanK x) (varK x) n c = x1 x (meanR x) (varR x) n c := by
  unfold x1
  rw [mean_eq, var_eq x hx]

/-! ## The routed divisor -/

theorem x2_eq (ht : ∀ n d, ∃ r : ℝ, t n d = r) (hb : ∀ j, ∃ r : ℝ, b j = r) (hin : ∀ d, ch d < 512)
    (n : Fin 50000) (d : Fin 2048) : x2K t ch b n d = x2R t ch b hin n d := by
  unfold x2K x2R
  have hdv : ∀ c, ∃ r : ℝ, dv (x0 t ch) b n c = r := fun c => dv_real (fun n c => x0_real ht n c) hb n c
  have h1 : (∑ c : Fin 512, dv (x0 t ch) b n c * oh ch c d) = dv (x0 t ch) b n ⟨ch d, hin d⟩ := by
    rw [Finset.sum_eq_single (⟨ch d, hin d⟩ : Fin 512)]
    · simp [oh]
    · intro c _ hc
      have hne : ch d ≠ c.val := fun h => hc (Fin.ext h.symm)
      simp [oh, hne]
    · intro h; exact absurd (Finset.mem_univ _) h
  have h2 : (∑ c : Fin 512, (dv (x0 t ch) b n c - dv (x0 t ch) b n c) * oh ch c d) = 0 :=
    Finset.sum_eq_zero fun c _ => by
      obtain ⟨r, hr⟩ := hdv c
      rw [hr, ← EReal.coe_sub, sub_self, EReal.coe_zero, zero_mul]
  rw [h1, h2, add_zero]

end Cert.Bridge

end
-- ==== Proof.Join.lean ====
/-
  The two programs' results are one function of the arguments, for finite inputs with every index word below the
  channel count: both first results are the floored roots normalised by their batch statistics (the two arrangements
  of the statistics agree on reals), both second results the input divided by the divisor at the column's channel.
-/
import proofs.«427098_j31791347925866_3_alg».proof.Proof.KValue
import proofs.«427098_j31791347925866_3_alg».proof.Proof.RefRead
import proofs.«427098_j31791347925866_3_alg».proof.Proof.Bridge

noncomputable section

namespace Cert.Join

open Idealize.ShloMosaic Idealize.ShloMosaic.TcCoe Idealize.SL.Sem Idealize.ShloMosaic.ValueIdx
open Cert.KernelIdeal Cert.KernelIdeal.Gen Cert.KernelIdeal.KValue

variable (m : (ℓ : Loc nD τ sig) → Buf (Elt Ideal) ℓ) (ρ : Dev nD → PrngReg)

theorem x0_forms (c : Dev nD) :
    Cert.ReferenceIdeal.RefRead.xOf (Cert.ReferenceIdeal.RefTerm.x0 (F := Ideal) (a0 m c) (a1 m c))
      = Forms.x0 (tOf m c) (chOf m c) := by
  funext n j
  exact Cert.ReferenceIdeal.RefRead.x0_apply (a0 m c) (a1 m c) n j

/-- The first results agree. -/
theorem first (c : Dev nD) (ht : ∀ i, ∃ r : ℝ, a0 m c i = r) :
    Cert.ReferenceIdeal.RefTerm.x1 (F := Ideal) (Cert.ReferenceIdeal.RefTerm.x0 (F := Ideal) (a0 m c) (a1 m c)) = res1 m ρ c := by
  funext i
  obtain ⟨n, j, rfl⟩ : ∃ (n : Fin 50000) (j : Fin 512), i = ix2 n j := ⟨i 0, i 1, eq_ix2 i⟩
  rw [Cert.ReferenceIdeal.RefRead.x1_apply, res1_apply, x0_forms]
  exact (Cert.Bridge.x1_eq _ (fun n c' => Cert.Bridge.x0_real (fun n d => ht (ix2 n d)) n c') n j).symm

/-- The second results agree. -/
theorem second (c : Dev nD) (ht : ∀ i, ∃ r : ℝ, a0 m c i = r) (hb : ∀ i, ∃ r : ℝ, a2 m c i = r)
    (hin : ∀ d : Fin 2048, (a1 m c (ix1 d)).toNat < 512) :
    Cert.ReferenceIdeal.RefTerm.x2 (F := Ideal) (a0 m c) (a1 m c) (a2 m c) = res2 m ρ c := by
  funext i
  obtain ⟨n, d, rfl⟩ : ∃ (n : Fin 50000) (d : Fin 2048), i = ix2 n d := ⟨i 0, i 1, eq_ix2 i⟩
  rw [Cert.ReferenceIdeal.RefRead.x2_apply (a0 m c) (a1 m c) (a2 m c) hin, res2_apply]
  exact (Cert.Bridge.x2_eq (fun n d => ht (ix2 n d)) (fun j => hb (ix1 j)) hin n d).symm

end Cert.Join

end
-- ==== Proof.lean ====
/-
  RepNorm over 50000 rows, 2048 columns in 512 channels: the kernel's program against the jnp reference, over the
  extended reals, for finite `ten` and `beta` and every `rep_idx` entry in `[0, 512)`.

  Both programs compute, per row and channel, the root of the sum of the squares of the channel's columns, floored at
  a literal (`x0`); the first result is `(x0 − mean) · rsqrt (var + eps)` with the batch mean and variance of `x0`
  over the rows, the second `ten / (|x0 + beta| + eps)` with the divisor read at each column's channel.
  The kernel sums a channel's squares and routes the divisor back by products with 0/1 matrices built from the index
  words, where the reference scatters and gathers; it splits the divisor into a value and a remainder that is zero on
  the reals; it adds the statistics tile by tile and takes the variance as `E[x²] − mean²`, where the reference takes
  the mean squared deviation. On reals these are the same numbers (Proof/Bridge.lean); out of range the routing
  matrices have an empty column while the reference's gather clamps, which is why the range of the index words is
  part of the precondition.

  The three frames are the generated ones (the reference's is its run with the results dropped); the idealization's
  one rewrite is the format round trip of the divisor, the identity at the ideal instance.
-/
import proofs.«427098_j31791347925866_3_alg».proof.Defs
import proofs.«427098_j31791347925866_3_alg».proof.Proof.Gen.Kernel
import proofs.«427098_j31791347925866_3_alg».proof.Proof.Gen.Kernel.Frame
import proofs.«427098_j31791347925866_3_alg».proof.Proof.Gen.KernelIdeal
import proofs.«427098_j31791347925866_3_alg».proof.Proof.Gen.KernelIdeal.Frame
import proofs.«427098_j31791347925866_3_alg».proof.Proof.Gen.ReferenceIdeal
import proofs.«427098_j31791347925866_3_alg».proof.Proof.Gen.Pre_finite_inputs
import proofs.«427098_j31791347925866_3_alg».proof.Proof.KRun
import proofs.«427098_j31791347925866_3_alg».proof.Proof.RefRun
import proofs.«427098_j31791347925866_3_alg».proof.Proof.Pre
import proofs.«427098_j31791347925866_3_alg».proof.Proof.Join
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => ⟨(h c).2.2.1, (h c).2.2.2.1, (h c).2.2.2.2⟩)
    (Cert.ReferenceIdeal.RefRun.run (F := Ideal) m ρ)

/-- The one rewrite of the idealization: widening after narrowing is the identity at the ideal instance. -/
theorem preserves : Cert.preserves_Kernel_KernelIdeal := IdealRules.truncf_extf.statement _ .f32 .bf16

/-- Both programs run, from memories agreeing on the arguments, to the same two results. -/
theorem algebraic : Cert.algebraic_KernelIdeal_ReferenceIdeal := by
  intro m ρ m' ρ' hpre hagree
  refine ⟨fun c => Cert.KernelIdeal.KValue.res1 m ρ c, fun c => Cert.KernelIdeal.KValue.res2 m ρ c,
    Cert.KernelIdeal.KRun.run m ρ, ?_⟩
  refine (θ_run Cert.ReferenceIdeal.defs _ _).mono (fun r h c => ?_) (Cert.ReferenceIdeal.RefRun.run (F := Ideal) m' ρ')
  obtain ⟨h1, h2, k0, k1, k2⟩ := h c
  obtain ⟨e0, e1, e2⟩ := hagree c
  obtain ⟨ht, hb, hin⟩ := Cert.PreFacts.decode _ _ _ (hpre c)
  refine ⟨h1.trans ?_, h2.trans ?_, k0, k1, k2⟩
  · rw [e0, e1]
    exact Cert.Join.first m ρ c ht
  · rw [e0, e1, e2]
    exact Cert.Join.second m ρ c ht hb hin

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
